-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x3 .f32 .bf16
  ∧ IdealRules.truncf_extf.Statement Cert.KernelIdeal.S3x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S1x1 : Shape := ⟨2, ![1, 1]⟩
abbrev S1x512x3 : Shape := ⟨3, ![1, 512, 3]⟩
abbrev S1x3x4096 : Shape := ⟨3, ![1, 3, 4096]⟩
abbrev S1x4096 : Shape := ⟨2, ![1, 4096]⟩
abbrev S512x3 : Shape := ⟨2, ![512, 3]⟩
abbrev S3x4096 : Shape := ⟨2, ![3, 4096]⟩
abbrev S512 : Shape := ⟨1, ![512]⟩
abbrev S512x1 : Shape := ⟨2, ![512, 1]⟩
abbrev S4096 : Shape := ⟨1, ![4096]⟩
abbrev S512x4096 : Shape := ⟨2, ![512, 4096]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S1x1, .f32⟩
  | .hbm, ⟨4, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1, .f32⟩
  | .local _ .vmem, ⟨5, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  transposes_S4x4096x3_S4x3x4096_0_2_1 : S4x4096x3.Transposes [0, 2, 1] S4x3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  bitsLt_bf16_f32 : FTy.bits .bf16 < FTy.bits .f32
  reduces_S512x3_S512 : S512x3.Reduces [1] S512
  shapeCasts_S512_S512x1 : S512.ShapeCasts S512x1
  reduces_S3x4096_S4096 : S3x4096.Reduces [0] S4096
  shapeCasts_S4096_S1x4096 : S4096.ShapeCasts S1x4096
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  inb_S1x1_S1x1_0_0 : ∀ a, (![0, 0] : Fin 2 → Nat) a + S1x1.size a ≤ S1x1.size a
  h_S1x1 : 0 < S1x1.numel
  reduces_S512x4096_S512 : S512x4096.Reduces [1] S512
  reduces_S512x1_S1 : S512x1.Reduces [0] S1
  shapeCasts_S1_S1x1 : S1.ShapeCasts S1x1
  shapeCasts_S1x1_S1x1 : S1x1.ShapeCasts S1x1
  reduces_S512x4096_S4096 : S512x4096.Reduces [0] S4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S1x4096_S1 : S1x4096.Reduces [1] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.K.Cases.lean ====
/-
  The chamfer kernel's body branches four times on the grid coordinates (b, nb) of a point:
  on (b = 0 and nb = 0) it zeroes the loss accumulator; on nb = 0 it stores the tile's column minima into the
  scratch row; on nb ≠ 0 it folds them into the scratch row by a pointwise minimum; on nb = 7 it adds the
  scratch row's sum into the loss. Over the 4 × 8 grid, point t has b = t / 8 and nb = t % 8, so the four
  conditions hold exactly at t = 0, at t % 8 = 0, at t % 8 ≠ 0 and at t % 8 = 7. These closed forms are decided
  here once over the 32 points; every later module splits a point into one of four cases by them:
    A: t = 0;   B: t % 8 = 0, t ≠ 0;   C: 0 < t % 8 < 7;   D: t % 8 = 7.
-/
import proofs.«128816_g21801253994783_cont_8to1_138_5_alg».proof.Proof.Gen.Kernel.Launch
import proofs.«128816_g21801253994783_cont_8to1_138_5_alg».proof.Proof.Gen.Kernel.Skeleton
import proofs.«128816_g21801253994783_cont_8to1_138_5_alg».proof.Proof.Gen.Kernel.Points
import proofs.«128816_g21801253994783_cont_8to1_138_5_alg».proof.Proof.Gen.Kernel.Frame

noncomputable section

namespace Cert.Kernel.Body

open Cert.Kernel Cert.Kernel.Gen
open Idealize.ShloMosaic Idealize.ShloMosaic.TcCoe
open Idealize.SL Idealize.SL.Sem

variable {F : FTy → Type} [FloatOps F]

/-- The loss accumulator is zeroed: b = 0 and nb = 0 (the body's first `scf.if`). -/
abbrev condZ (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1
/-- The scratch row is overwritten by the tile's column minima: nb = 0. -/
abbrev condF (i : grid0.Coords) : Prop :=
  (Scalar.cmpi .ne (Scalar.extui (Scalar.cmpi .eq (BitVec.ofNat 32 (i 1).val) 0#32)) 0#32) = 1#1
/-- The scratch row is folded with the tile's column minima: nb ≠ 0. -/
abbrev condN (i : grid0.Coords) : Prop :=
  (Scalar.cmpi .ne (Scalar.extui (Scalar.cmpi .ne (BitVec.ofNat 32 (i 1).val) 0#32)) 0#32) = 1#1
/-- The scratch row's sum is added to the loss: nb = 7, the batch's last tile. -/
abbrev condL (i : grid0.Coords) : Prop :=
  (Scalar.cmpi .ne (Scalar.extui (Scalar.cmpi .eq (BitVec.ofNat 32 (i 1).val) 7#32)) 0#32) = 1#1

theorem hcondZ : ∀ t : Fin cfg0.N, condZ (grid0.coords t) ↔ t.val = 0 :=
  (by decide +kernel : ∀ t : Fin grid0.N, condZ (grid0.coords t) ↔ t.val = 0)
theorem hcondF : ∀ t : Fin cfg0.N, condF (grid0.coords t) ↔ t.val % 8 = 0 :=
  (by decide +kernel : ∀ t : Fin grid0.N, condF (grid0.coords t) ↔ t.val % 8 = 0)
theorem hcondN : ∀ t : Fin cfg0.N, condN (grid0.coords t) ↔ ¬ t.val % 8 = 0 :=
  (by decide +kernel : ∀ t : Fin grid0.N, condN (grid0.coords t) ↔ ¬ t.val % 8 = 0)
theorem hcondL : ∀ t : Fin cfg0.N, condL (grid0.coords t) ↔ t.val % 8 = 7 :=
  (by decide +kernel : ∀ t : Fin grid0.N, condL (grid0.coords t) ↔ t.val % 8 = 7)

/-- Each window's current staging memref at point `t`, as the pipeline passes it to the body, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch row (running column minima of the current batch). -/
abbrev scM : Memref sig .tc .vmem S1x4096 .f32 := Memref.whole cc0_scratch0

/-- The views through which the loss cell's and the scratch row's contents are stated. -/
abbrev VO : View sig .tc .vmem S1x1 .f32 := (ms2 ⟨0, by decide⟩).view
abbrev VS : View sig .tc .vmem S1x4096 .f32 := (scM).view

end Cert.Kernel.Body

end
-- ==== Proof.K.RunA.lean ====
/-
  The body at the grid's first point (case A: b = 0, nb = 0). The loss cell and the scratch row hold anything on
  entry; the body zeroes the loss cell, adds the tile's row-minima sum times 2^-15 to it, and overwrites the scratch
  row with the tile's column minima. What the two buffers end with is recorded as the lists of pieces the stores
  leave (last store first), found by running the body symbolically.
-/
import proofs.«128816_g21801253994783_cont_8to1_138_5_alg».proof.Proof.K.Cases
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the pieces the body's stores leave in the loss cell (`L4`) and in the scratch row (`L5`), with the
    body's triple on whole memrefs: the two input blocks at their contents and handed back unchanged, the loss cell
    and the scratch row at anything on entry and with their pieces written on exit. -/
noncomputable def runA (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : condZ i) (hF : condF i) (hN : ¬condN i) (hL : ¬condL i)
    (x0 : Vec F S1x512x3 .f32) (x1 : Vec F S1x3x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ g, owns (c : Thread nD τ) arg5 fullShare g)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.K.RunB.lean ====
/-
  The body at the first tile of a later batch (case B: nb = 0, b ≠ 0). The loss cell holds the running loss `xo`;
  the body adds the tile's row-minima sum times 2^-15 to it and overwrites the scratch row, whatever it held, with
  the tile's column minima.
-/
import proofs.«128816_g21801253994783_cont_8to1_138_5_alg».proof.Proof.K.RunA
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the pieces the body's stores leave in the loss cell (`L4`) and in the scratch row (`L5`), with the
    body's triple on whole memrefs. -/
noncomputable def runB (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : ¬condZ i) (hF : condF i) (hN : ¬condN i) (hL : ¬condL i)
    (x0 : Vec F S1x512x3 .f32) (x1 : Vec F S1x3x4096 .f32) (xo : Vec F S1x1 .f32) (xs : Vec F S1x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo ∗ (∃ g, owns (c : Thread nD τ) arg5 fullShare g)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1; obtain rfl := harg4.eq_unread hf4
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.K.RunC.lean ====
/-
  The body at a middle tile of a batch (case C: 0 < nb < 7). The loss cell holds the running loss `xo` and the
  scratch row the batch's running column minima `xs`; the body adds the tile's row-minima sum times 2^-15 to the
  loss and folds the tile's column minima into the scratch row by a pointwise minimum.
-/
import proofs.«128816_g21801253994783_cont_8to1_138_5_alg».proof.Proof.K.RunB
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the pieces the body's stores leave in the loss cell (`L4`) and in the scratch row (`L5`), with the
    body's triple on whole memrefs. -/
noncomputable def runC (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : ¬condZ i) (hF : ¬condF i) (hN : condN i) (hL : ¬condL i)
    (x0 : Vec F S1x512x3 .f32) (x1 : Vec F S1x3x4096 .f32) (xo : Vec F S1x1 .f32) (xs : Vec F S1x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.K.RunD.lean ====
/-
  The body at the last tile of a batch (case D: nb = 7). As at a middle tile it adds the tile's row-minima sum
  times 2^-15 to the loss and folds the tile's column minima into the scratch row; then it reads both back and adds
  the scratch row's sum, the batch's column-minima sum, times 2^-15 to the loss.
-/
import proofs.«128816_g21801253994783_cont_8to1_138_5_alg».proof.Proof.K.RunC
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case D: the pieces the body's stores leave in the loss cell (`L4`) and in the scratch row (`L5`), with the
    body's triple on whole memrefs. -/
noncomputable def runD (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : ¬condZ i) (hF : ¬condF i) (hN : condN i) (hL : condL i)
    (x0 : Vec F S1x512x3 .f32) (x1 : Vec F S1x3x4096 .f32) (xo : Vec F S1x1 .f32) (xs : Vec F S1x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.Kernel.Body

end
-- ==== Proof.K.Outs.lean ====
/-
  What the loss cell and the scratch row hold after every grid point. Each of the four cases leaves in each of the
  two buffers the pieces its run found; they tile the buffer, so reading them back gives the buffer's whole
  contents (`out4_κ`, `out5_κ`). `outsAt` follows the grid: point 0 is case A from anything; a later point is
  case B, C or D by t % 8, run from what the point before left (the loss cell is not written back before the last
  point, and the scratch row is the kernel's own).
-/
import proofs.«128816_g21801253994783_cont_8to1_138_5_alg».proof.Proof.K.RunD
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem cover4_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) (y : S1x1.Idx) :
    ∃ pc ∈ (runA c i arg2 harg2 arg3 harg3 arg4 harg4 arg5 harg5 hZ hF hN hL x0 x1).1, y ∈ pc.1.set :=
  View.cover_of_tiledL (runA c i arg2 harg2 arg3 harg3 arg4 harg4 arg5 harg5 hZ hF hN hL x0 x1).1 S1x1.size (by sl_kernel_rfl) y
theorem cover5_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) (y : S1x4096.Idx) :
    ∃ pc ∈ (runA c i arg2 harg2 arg3 harg3 arg4 harg4 arg5 harg5 hZ hF hN hL x0 x1).2.1, y ∈ pc.1.set :=
  View.cover_of_tiledL (runA c i arg2 harg2 arg3 harg3 arg4 harg4 arg5 harg5 hZ hF hN hL x0 x1).2.1 S1x4096.size (by sl_kernel_rfl) y
/-- What case A leaves in the loss cell: its pieces read back. -/
def out4_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) : Vec F S1x1 .f32 :=
  VO.read (Elt F) (VO.writes (Elt F) VO.junk (runA c i arg2 harg2 arg3 harg3 arg4 harg4 arg5 harg5 hZ hF hN hL x0 x1).1)
/-- What case A leaves in the scratch row: its pieces read back. -/
def out5_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) : Vec F S1x4096 .f32 :=
  VS.read (Elt F) (VS.writes (Elt F) VS.junk (runA c i arg2 harg2 arg3 harg3 arg4 harg4 arg5 harg5 hZ hF hN hL x0 x1).2.1)

theorem cover4_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) (y : S1x1.Idx) :
    ∃ pc ∈ (runB c i arg2 harg2 arg3 harg3 arg4 harg4 arg5 harg5 hZ hF hN hL x0 x1 xo xs).1, y ∈ pc.1.set :=
  View.cover_of_tiledL (runB c i arg2 harg2 arg3 harg3 arg4 harg4 arg5 harg5 hZ hF hN hL x0 x1 xo xs).1 S1x1.size (by sl_kernel_rfl) y
theorem cover5_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) (y : S1x4096.Idx) :
    ∃ pc ∈ (runB c i arg2 harg2 arg3 harg3 arg4 harg4 arg5 harg5 hZ hF hN hL x0 x1 xo xs).2.1, y ∈ pc.1.set :=
  View.cover_of_tiledL (runB c i arg2 harg2 arg3 harg3 arg4 harg4 arg5 harg5 hZ hF hN hL x0 x1 xo xs).2.1 S1x4096.size (by sl_kernel_rfl) y
/-- What case B leaves in the loss cell: its pieces read back. -/
def out4_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (runB c i arg2 harg2 arg3 harg3 arg4 harg4 arg5 harg5 hZ hF hN hL x0 x1 xo xs).1)
/-- What case B leaves in the scratch row: its pieces read back. -/
def out5_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (runB c i arg2 harg2 arg3 harg3 arg4 harg4 arg5 harg5 hZ hF hN hL x0 x1 xo xs).2.1)

theorem cover4_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) (y : S1x1.Idx) :
    ∃ pc ∈ (runC c i arg2 harg2 arg3 harg3 arg4 harg4 arg5 harg5 hZ hF hN hL x0 x1 xo xs).1, y ∈ pc.1.set :=
  View.cover_of_tiledL (runC c i arg2 harg2 arg3 harg3 arg4 harg4 arg5 harg5 hZ hF hN hL x0 x1 xo xs).1 S1x1.size (by sl_kernel_rfl) y
theorem cover5_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) (y : S1x4096.Idx) :
    ∃ pc ∈ (runC c i arg2 harg2 arg3 harg3 arg4 harg4 arg5 harg5 hZ hF hN hL x0 x1 xo xs).2.1, y ∈ pc.1.set :=
  View.cover_of_tiledL (runC c i arg2 harg2 arg3 harg3 arg4 harg4 arg5 harg5 hZ hF hN hL x0 x1 xo xs).2.1 S1x4096.size (by sl_kernel_rfl) y
/-- What case C leaves in the loss cell: its pieces read back. -/
def out4_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (runC c i arg2 harg2 arg3 harg3 arg4 harg4 arg5 harg5 hZ hF hN hL x0 x1 xo xs).1)
/-- What case C leaves in the scratch row: its pieces read back. -/
def out5_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (runC c i arg2 harg2 arg3 harg3 arg4 harg4 arg5 harg5 hZ hF hN hL x0 x1 xo xs).2.1)

theorem cover4_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) (y : S1x1.Idx) :
    ∃ pc ∈ (runD c i arg2 harg2 arg3 harg3 arg4 harg4 arg5 harg5 hZ hF hN hL x0 x1 xo xs).1, y ∈ pc.1.set :=
  View.cover_of_tiledL (runD c i arg2 harg2 arg3 harg3 arg4 harg4 arg5 harg5 hZ hF hN hL x0 x1 xo xs).1 S1x1.size (by sl_kernel_rfl) y
theorem cover5_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) (y : S1x4096.Idx) :
    ∃ pc ∈ (runD c i arg2 harg2 arg3 harg3 arg4 harg4 arg5 harg5 hZ hF hN hL x0 x1 xo xs).2.1, y ∈ pc.1.set :=
  View.cover_of_tiledL (runD c i arg2 harg2 arg3 harg3 arg4 harg4 arg5 harg5 hZ hF hN hL x0 x1 xo xs).2.1 S1x4096.size (by sl_kernel_rfl) y
/-- What case D leaves in the loss cell: its pieces read back. -/
def out4_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (runD c i arg2 harg2 arg3 harg3 arg4 harg4 arg5 harg5 hZ hF hN hL x0 x1 xo xs).1)
/-- What case D leaves in the scratch row: its pieces read back. -/
def out5_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (runD c i arg2 harg2 arg3 harg3 arg4 harg4 arg5 harg5 hZ hF hN hL x0 x1 xo xs).2.1)

/-! ## Which conditions hold at a point of each case -/

theorem hypsA (t : Fin cfg0.N) (hz : t.val = 0) :
    condZ (grid0.coords t) ∧ condF (grid0.coords t) ∧ ¬condN (grid0.coords t) ∧ ¬condL (grid0.coords t) :=
  ⟨(hcondZ t).mpr hz, (hcondF t).mpr (by omega), fun h => (hcondN t).mp h (by omega), fun h => by have := (hcondL t).mp h; omega⟩
theorem hypsB (t : Fin cfg0.N) (h0 : t.val % 8 = 0) (hz : t.val ≠ 0) :
    ¬condZ (grid0.coords t) ∧ condF (grid0.coords t) ∧ ¬condN (grid0.coords t) ∧ ¬condL (grid0.coords t) :=
  ⟨fun h => hz ((hcondZ t).mp h), (hcondF t).mpr h0, fun h => (hcondN t).mp h h0, fun h => by have := (hcondL t).mp h; omega⟩
theorem hypsC (t : Fin cfg0.N) (h0 : ¬t.val % 8 = 0) (h7 : ¬t.val % 8 = 7) :
    ¬condZ (grid0.coords t) ∧ ¬condF (grid0.coords t) ∧ condN (grid0.coords t) ∧ ¬condL (grid0.coords t) :=
  ⟨fun h => by have := (hcondZ t).mp h; omega, fun h => h0 ((hcondF t).mp h), (hcondN t).mpr h0, fun h => h7 ((hcondL t).mp h)⟩
theorem hypsD (t : Fin cfg0.N) (h7 : t.val % 8 = 7) :
    ¬condZ (grid0.coords t) ∧ ¬condF (grid0.coords t) ∧ condN (grid0.coords t) ∧ condL (grid0.coords t) :=
  ⟨fun h => by have := (hcondZ t).mp h; omega, fun h => by have := (hcondF t).mp h; omega, (hcondN t).mpr (by omega), (hcondL t).mpr h7⟩

/-! ## One point's effect, case by case, at the point's memrefs and input blocks -/

def outA (c : Dev nD) (t : Fin cfg0.N) (hz : t.val = 0) : Vec F S1x1 .f32 × Vec F S1x4096 .f32 :=
  (out4_A c (grid0.coords t) (ms0 t) (hs0 t) (ms1 t) (hs1 t) (ms2 t) (hs2 t) scM (Memref.isWhole_whole _) (hypsA t hz).1 (hypsA t hz).2.1 (hypsA t hz).2.2.1 (hypsA t hz).2.2.2 (iblk m c 0 t) (iblk m c 1 t),
   out5_A c (grid0.coords t) (ms0 t) (hs0 t) (ms1 t) (hs1 t) (ms2 t) (hs2 t) scM (Memref.isWhole_whole _) (hypsA t hz).1 (hypsA t hz).2.1 (hypsA t hz).2.2.1 (hypsA t hz).2.2.2 (iblk m c 0 t) (iblk m c 1 t))
def outB (c : Dev nD) (t : Fin cfg0.N) (h0 : t.val % 8 = 0) (hz : t.val ≠ 0) (xo : Vec F S1x1 .f32) (xs : Vec F S1x4096 .f32) :
    Vec F S1x1 .f32 × Vec F S1x4096 .f32 :=
  (out4_B c (grid0.coords t) (ms0 t) (hs0 t) (ms1 t) (hs1 t) (ms2 t) (hs2 t) scM (Memref.isWhole_whole _) (hypsB t h0 hz).1 (hypsB t h0 hz).2.1 (hypsB t h0 hz).2.2.1 (hypsB t h0 hz).2.2.2 (iblk m c 0 t) (iblk m c 1 t) xo xs,
   out5_B c (grid0.coords t) (ms0 t) (hs0 t) (ms1 t) (hs1 t) (ms2 t) (hs2 t) scM (Memref.isWhole_whole _) (hypsB t h0 hz).1 (hypsB t h0 hz).2.1 (hypsB t h0 hz).2.2.1 (hypsB t h0 hz).2.2.2 (iblk m c 0 t) (iblk m c 1 t) xo xs)
def outC (c : Dev nD) (t : Fin cfg0.N) (h0 : ¬t.val % 8 = 0) (h7 : ¬t.val % 8 = 7) (xo : Vec F S1x1 .f32) (xs : Vec F S1x4096 .f32) :
    Vec F S1x1 .f32 × Vec F S1x4096 .f32 :=
  (out4_C c (grid0.coords t) (ms0 t) (hs0 t) (ms1 t) (hs1 t) (ms2 t) (hs2 t) scM (Memref.isWhole_whole _) (hypsC t h0 h7).1 (hypsC t h0 h7).2.1 (hypsC t h0 h7).2.2.1 (hypsC t h0 h7).2.2.2 (iblk m c 0 t) (iblk m c 1 t) xo xs,
   out5_C c (grid0.coords t) (ms0 t) (hs0 t) (ms1 t) (hs1 t) (ms2 t) (hs2 t) scM (Memref.isWhole_whole _) (hypsC t h0 h7).1 (hypsC t h0 h7).2.1 (hypsC t h0 h7).2.2.1 (hypsC t h0 h7).2.2.2 (iblk m c 0 t) (iblk m c 1 t) xo xs)
def outD (c : Dev nD) (t : Fin cfg0.N) (h7 : t.val % 8 = 7) (xo : Vec F S1x1 .f32) (xs : Vec F S1x4096 .f32) :
    Vec F S1x1 .f32 × Vec F S1x4096 .f32 :=
  (out4_D c (grid0.coords t) (ms0 t) (hs0 t) (ms1 t) (hs1 t) (ms2 t) (hs2 t) scM (Memref.isWhole_whole _) (hypsD t h7).1 (hypsD t h7).2.1 (hypsD t h7).2.2.1 (hypsD t h7).2.2.2 (iblk m c 0 t) (iblk m c 1 t) xo xs,
   out5_D c (grid0.coords t) (ms0 t) (hs0 t) (ms1 t) (hs1 t) (ms2 t) (hs2 t) scM (Memref.isWhole_whole _) (hypsD t h7).1 (hypsD t h7).2.1 (hypsD t h7).2.2.1 (hypsD t h7).2.2.2 (iblk m c 0 t) (iblk m c 1 t) xo xs)

/-! ## The accumulation over the grid -/

/-- The loss cell and the scratch row after the body at position `n`. -/
def outsAt (c : Dev nD) : (n : ℕ) → n < cfg0.N → Vec F S1x1 .f32 × Vec F S1x4096 .f32
  | 0, hn => outA m c ⟨0, hn⟩ rfl
  | n + 1, hn =>
    if h0 : (n + 1) % 8 = 0 then
      outB m c ⟨n + 1, hn⟩ h0 (Nat.succ_ne_zero n) (outsAt c n (Nat.lt_of_succ_lt hn)).1 (outsAt c n (Nat.lt_of_succ_lt hn)).2
    else if h7 : (n + 1) % 8 = 7 then
      outD m c ⟨n + 1, hn⟩ h7 (outsAt c n (Nat.lt_of_succ_lt hn)).1 (outsAt c n (Nat.lt_of_succ_lt hn)).2
    else
      outC m c ⟨n + 1, hn⟩ h0 h7 (outsAt c n (Nat.lt_of_succ_lt hn)).1 (outsAt c n (Nat.lt_of_succ_lt hn)).2

/-- The point before `t`. -/
abbrev prevLt (t : Fin cfg0.N) : t.val - 1 < cfg0.N := Nat.lt_of_le_of_lt (Nat.sub_le _ _) t.isLt

theorem outsAt_A (c : Dev nD) (t : Fin cfg0.N) (hz : t.val = 0) : outsAt m c t.val t.isLt = outA m c t hz := by
  obtain ⟨n, hn⟩ := t
  cases n with
  | zero => rfl
  | succ n => exact absurd hz (Nat.succ_ne_zero n)

theorem outsAt_B (c : Dev nD) (t : Fin cfg0.N) (h0 : t.val % 8 = 0) (hz : t.val ≠ 0) :
    outsAt m c t.val t.isLt = outB m c t h0 hz (outsAt m c (t.val - 1) (prevLt t)).1 (outsAt m c (t.val - 1) (prevLt t)).2 := by
  obtain ⟨n, hn⟩ := t
  cases n with
  | zero => exact absurd rfl hz
  | succ n => exact (dif_pos h0).trans rfl

theorem outsAt_C (c : Dev nD) (t : Fin cfg0.N) (h0 : ¬t.val % 8 = 0) (h7 : ¬t.val % 8 = 7) :
    outsAt m c t.val t.isLt = outC m c t h0 h7 (outsAt m c (t.val - 1) (prevLt t)).1 (outsAt m c (t.val - 1) (prevLt t)).2 := by
  obtain ⟨n, hn⟩ := t
  cases n with
  | zero => exact absurd (Nat.zero_mod 8) h0
  | succ n => exact (dif_neg h0).trans ((dif_neg h7).trans rfl)

theorem outsAt_D (c : Dev nD) (t : Fin cfg0.N) (h7 : t.val % 8 = 7) :
    outsAt m c t.val t.isLt = outD m c t h7 (outsAt m c (t.val - 1) (prevLt t)).1 (outsAt m c (t.val - 1) (prevLt t)).2 := by
  obtain ⟨n, hn⟩ := t
  cases n with
  | zero => exact absurd (show (0 : ℕ) % 8 = 7 from h7) (by decide)
  | succ n =>
    have h7' : (n + 1) % 8 = 7 := h7
    exact (dif_neg (by omega)).trans ((dif_pos h7').trans rfl)

end Cert.Kernel.Body

end
-- ==== Proof.K.Body.lean ====
/-
  The frame of the chamfer kernel's program. The region's invariant tracks the scratch row: before the first point
  it holds anything, before a later point what the point before left (`outsAt`'s second component). The proof data
  say that after point t the two input windows' buffers hold their blocks and the loss cell `outsAt`'s first
  component; the loss window is written back only after the last point, so before a later point its buffer still
  holds what the point before left. The body obligation splits a point into its case and applies that case's run.
  The launch is the frame run with a tracked invariant and host lines after the region.
-/
import proofs.«128816_g21801253994783_cont_8to1_138_5_alg».proof.Proof.K.Outs
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class invariant, spelled over the scratch row's memref: the scratch row at anything, the generator register
    at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region invariant before position `n`: the class's before the first point; afterwards the scratch row at
    what the point before left and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Before a point that is not the first the loss cell's buffer holds what the point before left: the window is
    written back after the last point only, and is live and uncut. -/
theorem before0_2_pos (c : Dev nD) (t : Fin cfg0.N) (hz : t.val ≠ 0) (d) :
    (dats m 0 c).before 2 t d = (outsAt m c (t.val - 1) (prevLt t)).1 := by
  have hN : t.val < 32 := lt_of_lt_of_eq t.isLt (show cfg0.N = 32 from N_0)
  rw [Dat.before_out_kept _ 2 rfl t hz (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, after0_0, after0_1, after0_2]
  have hN : t.val < 32 := lt_of_lt_of_eq t.isLt (show cfg0.N = 32 from N_0)
  by_cases hz : t.val = 0
  · rw [outsAt_A m c t hz]
    unfold outA out4_A out5_A; dsimp only
    rw [PhiS_castSucc m c t, PhiS_zero m c _ _ hz, PhiA_eq]
    iintro ⟨⟨HS, Hg⟩, Ho, ⟨%d0, H0⟩, ⟨%d1, H1⟩, ⟨%d2, H2⟩⟩
    iapply ((runA c (grid0.coords t) _ _ _ _ _ _ _ _ (hypsA t hz).1 (hypsA t hz).2.1 (hypsA t hz).2.2.1 (hypsA t hz).2.2.2 (iblk m c 0 t) (iblk m c 1 t)).2.2 Set.univ _)
    isplitl [H0]; · iexact H0
    isplitl [H1]; · iexact H1
    isplitl [H2]; · iexists _; iexact H2
    isplitl [HS]; · iexact HS
    iintro ⟨H0, H1, ⟨%e4, H4⟩, ⟨%e5, H5⟩⟩
    isplitl [H5 Hg]
    · isplitl [H5]
      · unfold owns; iexists _; isplitr
        swap; · iexact H5
        ipureintro; exact View.read_writes_of_cover _ _ _ _ _ (cover5_A c _ _ _ _ _ _ _ _ _ _ _ _ _ _ _ )
      iexact Hg
    isplitl [Ho]; · iexact Ho
    isplitl [H0]; · iexact H0
    isplitl [H1]; · iexact H1
    unfold owns; iexists _; isplitr
    swap; · iexact H4
    ipureintro; exact View.read_writes_of_cover _ _ _ _ _ (cover4_A c _ _ _ _ _ _ _ _ _ _ _ _ _ _ _ )
  · simp only [before0_2_pos m c t hz]
    rw [PhiS_castSucc m c t, PhiS_pos m c _ _ hz]
    by_cases h0 : t.val % 8 = 0
    · rw [outsAt_B m c t h0 hz]
      unfold outB out4_B out5_B; dsimp only
      iintro ⟨⟨HS, Hg⟩, Ho, ⟨%d0, H0⟩, ⟨%d1, H1⟩, ⟨%d2, H2⟩⟩
      iapply ((runB c (grid0.coords t) _ _ _ _ _ _ _ _ (hypsB t h0 hz).1 (hypsB t h0 hz).2.1 (hypsB t h0 hz).2.2.1 (hypsB t h0 hz).2.2.2 (iblk m c 0 t) (iblk m c 1 t) (outsAt m c (t.val - 1) (prevLt t)).1 (outsAt m c (t.val - 1) (prevLt t)).2).2.2 Set.univ _)
      isplitl [H0]; · iexact H0
      isplitl [H1]; · iexact H1
      isplitl [H2]; · iexact H2
      isplitl [HS]; · iexists _; iexact HS
      iintro ⟨H0, H1, ⟨%e4, H4⟩, ⟨%e5, H5⟩⟩
      isplitl [H5 Hg]
      · isplitl [H5]
        · unfold owns; iexists _; isplitr
          swap; · iexact H5
          ipureintro; exact View.read_writes_of_cover _ _ _ _ _ (cover5_B c _ _ _ _ _ _ _ _ _ _ _ _ _ _ _ _ _ )
        iexact Hg
      isplitl [Ho]; · iexact Ho
      isplitl [H0]; · iexact H0
      isplitl [H1]; · iexact H1
      unfold owns; iexists _; isplitr
      swap; · iexact H4
      ipureintro; exact View.read_writes_of_cover _ _ _ _ _ (cover4_B c _ _ _ _ _ _ _ _ _ _ _ _ _ _ _ _ _ )
    · by_cases h7 : t.val % 8 = 7
      · rw [outsAt_D m c t h7]
        unfold outD out4_D out5_D; dsimp only
        iintro ⟨⟨HS, Hg⟩, Ho, ⟨%d0, H0⟩, ⟨%d1, H1⟩, ⟨%d2, H2⟩⟩
        iapply ((runD c (grid0.coords t) _ _ _ _ _ _ _ _ (hypsD t h7).1 (hypsD t h7).2.1 (hypsD t h7).2.2.1 (hypsD t h7).2.2.2 (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e4, H4⟩, ⟨%e5, H5⟩⟩
        isplitl [H5 Hg]
        · isplitl [H5]
          · unfold owns; iexists _; isplitr
            swap; · iexact H5
            ipureintro; exact View.read_writes_of_cover _ _ _ _ _ (cover5_D c _ _ _ _ _ _ _ _ _ _ _ _ _ _ _ _ _ )
          iexact Hg
        isplitl [Ho]; · iexact Ho
        isplitl [H0]; · iexact H0
        isplitl [H1]; · iexact H1
        unfold owns; iexists _; isplitr
        swap; · iexact H4
        ipureintro; exact View.read_writes_of_cover _ _ _ _ _ (cover4_D c _ _ _ _ _ _ _ _ _ _ _ _ _ _ _ _ _ )
      · rw [outsAt_C m c t h0 h7]
        unfold outC out4_C out5_C; dsimp only
        iintro ⟨⟨HS, Hg⟩, Ho, ⟨%d0, H0⟩, ⟨%d1, H1⟩, ⟨%d2, H2⟩⟩
        iapply ((runC c (grid0.coords t) _ _ _ _ _ _ _ _ (hypsC t h0 h7).1 (hypsC t h0 h7).2.1 (hypsC t h0 h7).2.2.1 (hypsC t h0 h7).2.2.2 (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e4, H4⟩, ⟨%e5, H5⟩⟩
        isplitl [H5 Hg]
        · isplitl [H5]
          · unfold owns; iexists _; isplitr
            swap; · iexact H5
            ipureintro; exact View.read_writes_of_cover _ _ _ _ _ (cover5_C c _ _ _ _ _ _ _ _ _ _ _ _ _ _ _ _ _ )
          iexact Hg
        isplitl [Ho]; · iexact Ho
        isplitl [H0]; · iexact H0
        isplitl [H1]; · iexact H1
        unfold owns; iexists _; isplitr
        swap; · iexact H4
        ipureintro; exact View.read_writes_of_cover _ _ _ _ _ (cover4_C c _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Cases.lean ====
/-
  The chamfer kernel's body branches four times on the grid coordinates (b, nb) of a point:
  on (b = 0 and nb = 0) it zeroes the loss accumulator; on nb = 0 it stores the tile's column minima into the
  scratch row; on nb ≠ 0 it folds them into the scratch row by a pointwise minimum; on nb = 7 it adds the
  scratch row's sum into the loss. Over the 4 × 8 grid, point t has b = t / 8 and nb = t % 8, so the four
  conditions hold exactly at t = 0, at t % 8 = 0, at t % 8 ≠ 0 and at t % 8 = 7. These closed forms are decided
  here once over the 32 points; every later module splits a point into one of four cases by them:
    A: t = 0;   B: t % 8 = 0, t ≠ 0;   C: 0 < t % 8 < 7;   D: t % 8 = 7.
-/
import proofs.«128816_g21801253994783_cont_8to1_138_5_alg».proof.Proof.Gen.KernelIdeal.Launch
import proofs.«128816_g21801253994783_cont_8to1_138_5_alg».proof.Proof.Gen.KernelIdeal.Skeleton
import proofs.«128816_g21801253994783_cont_8to1_138_5_alg».proof.Proof.Gen.KernelIdeal.Points
import proofs.«128816_g21801253994783_cont_8to1_138_5_alg».proof.Proof.Gen.KernelIdeal.Frame

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

/-- The loss accumulator is zeroed: b = 0 and nb = 0 (the body's first `scf.if`). -/
abbrev condZ (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1
/-- The scratch row is overwritten by the tile's column minima: nb = 0. -/
abbrev condF (i : grid0.Coords) : Prop :=
  (Scalar.cmpi .ne (Scalar.extui (Scalar.cmpi .eq (BitVec.ofNat 32 (i 1).val) 0#32)) 0#32) = 1#1
/-- The scratch row is folded with the tile's column minima: nb ≠ 0. -/
abbrev condN (i : grid0.Coords) : Prop :=
  (Scalar.cmpi .ne (Scalar.extui (Scalar.cmpi .ne (BitVec.ofNat 32 (i 1).val) 0#32)) 0#32) = 1#1
/-- The scratch row's sum is added to the loss: nb = 7, the batch's last tile. -/
abbrev condL (i : grid0.Coords) : Prop :=
  (Scalar.cmpi .ne (Scalar.extui (Scalar.cmpi .eq (BitVec.ofNat 32 (i 1).val) 7#32)) 0#32) = 1#1

theorem hcondZ : ∀ t : Fin cfg0.N, condZ (grid0.coords t) ↔ t.val = 0 :=
  (by decide +kernel : ∀ t : Fin grid0.N, condZ (grid0.coords t) ↔ t.val = 0)
theorem hcondF : ∀ t : Fin cfg0.N, condF (grid0.coords t) ↔ t.val % 8 = 0 :=
  (by decide +kernel : ∀ t : Fin grid0.N, condF (grid0.coords t) ↔ t.val % 8 = 0)
theorem hcondN : ∀ t : Fin cfg0.N, condN (grid0.coords t) ↔ ¬ t.val % 8 = 0 :=
  (by decide +kernel : ∀ t : Fin grid0.N, condN (grid0.coords t) ↔ ¬ t.val % 8 = 0)
theorem hcondL : ∀ t : Fin cfg0.N, condL (grid0.coords t) ↔ t.val % 8 = 7 :=
  (by decide +kernel : ∀ t : Fin grid0.N, condL (grid0.coords t) ↔ t.val % 8 = 7)

/-- Each window's current staging memref at point `t`, as the pipeline passes it to the body, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch row (running column minima of the current batch). -/
abbrev scM : Memref sig .tc .vmem S1x4096 .f32 := Memref.whole cc0_scratch0

/-- The views through which the loss cell's and the scratch row's contents are stated. -/
abbrev VO : View sig .tc .vmem S1x1 .f32 := (ms2 ⟨0, by decide⟩).view
abbrev VS : View sig .tc .vmem S1x4096 .f32 := (scM).view

end Cert.KernelIdeal.Body

end
-- ==== Proof.KI.RunA.lean ====
/-
  The body at the grid's first point (case A: b = 0, nb = 0). The loss cell and the scratch row hold anything on
  entry; the body zeroes the loss cell, adds the tile's row-minima sum times 2^-15 to it, and overwrites the scratch
  row with the tile's column minima. What the two buffers end with is recorded as the lists of pieces the stores
  leave (last store first), found by running the body symbolically.
-/
import proofs.«128816_g21801253994783_cont_8to1_138_5_alg».proof.Proof.KI.Cases
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the pieces the body's stores leave in the loss cell (`L4`) and in the scratch row (`L5`), with the
    body's triple on whole memrefs: the two input blocks at their contents and handed back unchanged, the loss cell
    and the scratch row at anything on entry and with their pieces written on exit. -/
noncomputable def runA (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : condZ i) (hF : condF i) (hN : ¬condN i) (hL : ¬condL i)
    (x0 : Vec F S1x512x3 .f32) (x1 : Vec F S1x3x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ g, owns (c : Thread nD τ) arg5 fullShare g)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.KI.RunB.lean ====
/-
  The body at the first tile of a later batch (case B: nb = 0, b ≠ 0). The loss cell holds the running loss `xo`;
  the body adds the tile's row-minima sum times 2^-15 to it and overwrites the scratch row, whatever it held, with
  the tile's column minima.
-/
import proofs.«128816_g21801253994783_cont_8to1_138_5_alg».proof.Proof.KI.RunA
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the pieces the body's stores leave in the loss cell (`L4`) and in the scratch row (`L5`), with the
    body's triple on whole memrefs. -/
noncomputable def runB (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : ¬condZ i) (hF : condF i) (hN : ¬condN i) (hL : ¬condL i)
    (x0 : Vec F S1x512x3 .f32) (x1 : Vec F S1x3x4096 .f32) (xo : Vec F S1x1 .f32) (xs : Vec F S1x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo ∗ (∃ g, owns (c : Thread nD τ) arg5 fullShare g)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%d5, %f5, -, H5⟩, Hk⟩
    obtain rfl := harg2.eq_unread hf0; obtain rfl := harg3.eq_unread hf1; obtain rfl := harg4.eq_unread hf4
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.KI.RunC.lean ====
/-
  The body at a middle tile of a batch (case C: 0 < nb < 7). The loss cell holds the running loss `xo` and the
  scratch row the batch's running column minima `xs`; the body adds the tile's row-minima sum times 2^-15 to the
  loss and folds the tile's column minima into the scratch row by a pointwise minimum.
-/
import proofs.«128816_g21801253994783_cont_8to1_138_5_alg».proof.Proof.KI.RunB
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the pieces the body's stores leave in the loss cell (`L4`) and in the scratch row (`L5`), with the
    body's triple on whole memrefs. -/
noncomputable def runC (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : ¬condZ i) (hF : ¬condF i) (hN : condN i) (hL : ¬condL i)
    (x0 : Vec F S1x512x3 .f32) (x1 : Vec F S1x3x4096 .f32) (xo : Vec F S1x1 .f32) (xs : Vec F S1x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.KI.RunD.lean ====
/-
  The body at the last tile of a batch (case D: nb = 7). As at a middle tile it adds the tile's row-minima sum
  times 2^-15 to the loss and folds the tile's column minima into the scratch row; then it reads both back and adds
  the scratch row's sum, the batch's column-minima sum, times 2^-15 to the loss.
-/
import proofs.«128816_g21801253994783_cont_8to1_138_5_alg».proof.Proof.KI.RunC
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case D: the pieces the body's stores leave in the loss cell (`L4`) and in the scratch row (`L5`), with the
    body's triple on whole memrefs. -/
noncomputable def runD (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole)
    (hZ : ¬condZ i) (hF : ¬condF i) (hN : condN i) (hL : condL i)
    (x0 : Vec F S1x512x3 .f32) (x1 : Vec F S1x3x4096 .f32) (xo : Vec F S1x1 .f32) (xs : Vec F S1x4096 .f32) :
    Σ' (L4 : List (View.Piece (Elt F) S1x1 .f32)), { L5 : List (View.Piece (Elt F) S1x4096 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1; obtain rfl := harg4.eq_unread hf4; obtain rfl := harg5.eq_unread hf5
    sl_exec (disch := first | exact hZ | exact hF | exact hN | exact hL)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

end Cert.KernelIdeal.Body

end
-- ==== Proof.KI.Outs.lean ====
/-
  What the loss cell and the scratch row hold after every grid point. Each of the four cases leaves in each of the
  two buffers the pieces its run found; they tile the buffer, so reading them back gives the buffer's whole
  contents (`out4_κ`, `out5_κ`). `outsAt` follows the grid: point 0 is case A from anything; a later point is
  case B, C or D by t % 8, run from what the point before left (the loss cell is not written back before the last
  point, and the scratch row is the kernel's own).
-/
import proofs.«128816_g21801253994783_cont_8to1_138_5_alg».proof.Proof.KI.RunD
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem cover4_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) (y : S1x1.Idx) :
    ∃ pc ∈ (runA c i arg2 harg2 arg3 harg3 arg4 harg4 arg5 harg5 hZ hF hN hL x0 x1).1, y ∈ pc.1.set :=
  View.cover_of_tiledL (runA c i arg2 harg2 arg3 harg3 arg4 harg4 arg5 harg5 hZ hF hN hL x0 x1).1 S1x1.size (by sl_kernel_rfl) y
theorem cover5_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) (y : S1x4096.Idx) :
    ∃ pc ∈ (runA c i arg2 harg2 arg3 harg3 arg4 harg4 arg5 harg5 hZ hF hN hL x0 x1).2.1, y ∈ pc.1.set :=
  View.cover_of_tiledL (runA c i arg2 harg2 arg3 harg3 arg4 harg4 arg5 harg5 hZ hF hN hL x0 x1).2.1 S1x4096.size (by sl_kernel_rfl) y
/-- What case A leaves in the loss cell: its pieces read back. -/
def out4_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) : Vec F S1x1 .f32 :=
  VO.read (Elt F) (VO.writes (Elt F) VO.junk (runA c i arg2 harg2 arg3 harg3 arg4 harg4 arg5 harg5 hZ hF hN hL x0 x1).1)
/-- What case A leaves in the scratch row: its pieces read back. -/
def out5_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) : Vec F S1x4096 .f32 :=
  VS.read (Elt F) (VS.writes (Elt F) VS.junk (runA c i arg2 harg2 arg3 harg3 arg4 harg4 arg5 harg5 hZ hF hN hL x0 x1).2.1)

theorem cover4_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) (y : S1x1.Idx) :
    ∃ pc ∈ (runB c i arg2 harg2 arg3 harg3 arg4 harg4 arg5 harg5 hZ hF hN hL x0 x1 xo xs).1, y ∈ pc.1.set :=
  View.cover_of_tiledL (runB c i arg2 harg2 arg3 harg3 arg4 harg4 arg5 harg5 hZ hF hN hL x0 x1 xo xs).1 S1x1.size (by sl_kernel_rfl) y
theorem cover5_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) (y : S1x4096.Idx) :
    ∃ pc ∈ (runB c i arg2 harg2 arg3 harg3 arg4 harg4 arg5 harg5 hZ hF hN hL x0 x1 xo xs).2.1, y ∈ pc.1.set :=
  View.cover_of_tiledL (runB c i arg2 harg2 arg3 harg3 arg4 harg4 arg5 harg5 hZ hF hN hL x0 x1 xo xs).2.1 S1x4096.size (by sl_kernel_rfl) y
/-- What case B leaves in the loss cell: its pieces read back. -/
def out4_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (runB c i arg2 harg2 arg3 harg3 arg4 harg4 arg5 harg5 hZ hF hN hL x0 x1 xo xs).1)
/-- What case B leaves in the scratch row: its pieces read back. -/
def out5_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (runB c i arg2 harg2 arg3 harg3 arg4 harg4 arg5 harg5 hZ hF hN hL x0 x1 xo xs).2.1)

theorem cover4_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) (y : S1x1.Idx) :
    ∃ pc ∈ (runC c i arg2 harg2 arg3 harg3 arg4 harg4 arg5 harg5 hZ hF hN hL x0 x1 xo xs).1, y ∈ pc.1.set :=
  View.cover_of_tiledL (runC c i arg2 harg2 arg3 harg3 arg4 harg4 arg5 harg5 hZ hF hN hL x0 x1 xo xs).1 S1x1.size (by sl_kernel_rfl) y
theorem cover5_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) (y : S1x4096.Idx) :
    ∃ pc ∈ (runC c i arg2 harg2 arg3 harg3 arg4 harg4 arg5 harg5 hZ hF hN hL x0 x1 xo xs).2.1, y ∈ pc.1.set :=
  View.cover_of_tiledL (runC c i arg2 harg2 arg3 harg3 arg4 harg4 arg5 harg5 hZ hF hN hL x0 x1 xo xs).2.1 S1x4096.size (by sl_kernel_rfl) y
/-- What case C leaves in the loss cell: its pieces read back. -/
def out4_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (runC c i arg2 harg2 arg3 harg3 arg4 harg4 arg5 harg5 hZ hF hN hL x0 x1 xo xs).1)
/-- What case C leaves in the scratch row: its pieces read back. -/
def out5_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (runC c i arg2 harg2 arg3 harg3 arg4 harg4 arg5 harg5 hZ hF hN hL x0 x1 xo xs).2.1)

theorem cover4_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) (y : S1x1.Idx) :
    ∃ pc ∈ (runD c i arg2 harg2 arg3 harg3 arg4 harg4 arg5 harg5 hZ hF hN hL x0 x1 xo xs).1, y ∈ pc.1.set :=
  View.cover_of_tiledL (runD c i arg2 harg2 arg3 harg3 arg4 harg4 arg5 harg5 hZ hF hN hL x0 x1 xo xs).1 S1x1.size (by sl_kernel_rfl) y
theorem cover5_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) (y : S1x4096.Idx) :
    ∃ pc ∈ (runD c i arg2 harg2 arg3 harg3 arg4 harg4 arg5 harg5 hZ hF hN hL x0 x1 xo xs).2.1, y ∈ pc.1.set :=
  View.cover_of_tiledL (runD c i arg2 harg2 arg3 harg3 arg4 harg4 arg5 harg5 hZ hF hN hL x0 x1 xo xs).2.1 S1x4096.size (by sl_kernel_rfl) y
/-- What case D leaves in the loss cell: its pieces read back. -/
def out4_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) : Vec F S1x1 .f32 :=
  VO.read (Elt F) (VO.writes (Elt F) VO.junk (runD c i arg2 harg2 arg3 harg3 arg4 harg4 arg5 harg5 hZ hF hN hL x0 x1 xo xs).1)
/-- What case D leaves in the scratch row: its pieces read back. -/
def out5_D (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) : Vec F S1x4096 .f32 :=
  VS.read (Elt F) (VS.writes (Elt F) VS.junk (runD c i arg2 harg2 arg3 harg3 arg4 harg4 arg5 harg5 hZ hF hN hL x0 x1 xo xs).2.1)

/-! ## Which conditions hold at a point of each case -/

theorem hypsA (t : Fin cfg0.N) (hz : t.val = 0) :
    condZ (grid0.coords t) ∧ condF (grid0.coords t) ∧ ¬condN (grid0.coords t) ∧ ¬condL (grid0.coords t) :=
  ⟨(hcondZ t).mpr hz, (hcondF t).mpr (by omega), fun h => (hcondN t).mp h (by omega), fun h => by have := (hcondL t).mp h; omega⟩
theorem hypsB (t : Fin cfg0.N) (h0 : t.val % 8 = 0) (hz : t.val ≠ 0) :
    ¬condZ (grid0.coords t) ∧ condF (grid0.coords t) ∧ ¬condN (grid0.coords t) ∧ ¬condL (grid0.coords t) :=
  ⟨fun h => hz ((hcondZ t).mp h), (hcondF t).mpr h0, fun h => (hcondN t).mp h h0, fun h => by have := (hcondL t).mp h; omega⟩
theorem hypsC (t : Fin cfg0.N) (h0 : ¬t.val % 8 = 0) (h7 : ¬t.val % 8 = 7) :
    ¬condZ (grid0.coords t) ∧ ¬condF (grid0.coords t) ∧ condN (grid0.coords t) ∧ ¬condL (grid0.coords t) :=
  ⟨fun h => by have := (hcondZ t).mp h; omega, fun h => h0 ((hcondF t).mp h), (hcondN t).mpr h0, fun h => h7 ((hcondL t).mp h)⟩
theorem hypsD (t : Fin cfg0.N) (h7 : t.val % 8 = 7) :
    ¬condZ (grid0.coords t) ∧ ¬condF (grid0.coords t) ∧ condN (grid0.coords t) ∧ condL (grid0.coords t) :=
  ⟨fun h => by have := (hcondZ t).mp h; omega, fun h => by have := (hcondF t).mp h; omega, (hcondN t).mpr (by omega), (hcondL t).mpr h7⟩

/-! ## One point's effect, case by case, at the point's memrefs and input blocks -/

def outA (c : Dev nD) (t : Fin cfg0.N) (hz : t.val = 0) : Vec F S1x1 .f32 × Vec F S1x4096 .f32 :=
  (out4_A c (grid0.coords t) (ms0 t) (hs0 t) (ms1 t) (hs1 t) (ms2 t) (hs2 t) scM (Memref.isWhole_whole _) (hypsA t hz).1 (hypsA t hz).2.1 (hypsA t hz).2.2.1 (hypsA t hz).2.2.2 (iblk m c 0 t) (iblk m c 1 t),
   out5_A c (grid0.coords t) (ms0 t) (hs0 t) (ms1 t) (hs1 t) (ms2 t) (hs2 t) scM (Memref.isWhole_whole _) (hypsA t hz).1 (hypsA t hz).2.1 (hypsA t hz).2.2.1 (hypsA t hz).2.2.2 (iblk m c 0 t) (iblk m c 1 t))
def outB (c : Dev nD) (t : Fin cfg0.N) (h0 : t.val % 8 = 0) (hz : t.val ≠ 0) (xo : Vec F S1x1 .f32) (xs : Vec F S1x4096 .f32) :
    Vec F S1x1 .f32 × Vec F S1x4096 .f32 :=
  (out4_B c (grid0.coords t) (ms0 t) (hs0 t) (ms1 t) (hs1 t) (ms2 t) (hs2 t) scM (Memref.isWhole_whole _) (hypsB t h0 hz).1 (hypsB t h0 hz).2.1 (hypsB t h0 hz).2.2.1 (hypsB t h0 hz).2.2.2 (iblk m c 0 t) (iblk m c 1 t) xo xs,
   out5_B c (grid0.coords t) (ms0 t) (hs0 t) (ms1 t) (hs1 t) (ms2 t) (hs2 t) scM (Memref.isWhole_whole _) (hypsB t h0 hz).1 (hypsB t h0 hz).2.1 (hypsB t h0 hz).2.2.1 (hypsB t h0 hz).2.2.2 (iblk m c 0 t) (iblk m c 1 t) xo xs)
def outC (c : Dev nD) (t : Fin cfg0.N) (h0 : ¬t.val % 8 = 0) (h7 : ¬t.val % 8 = 7) (xo : Vec F S1x1 .f32) (xs : Vec F S1x4096 .f32) :
    Vec F S1x1 .f32 × Vec F S1x4096 .f32 :=
  (out4_C c (grid0.coords t) (ms0 t) (hs0 t) (ms1 t) (hs1 t) (ms2 t) (hs2 t) scM (Memref.isWhole_whole _) (hypsC t h0 h7).1 (hypsC t h0 h7).2.1 (hypsC t h0 h7).2.2.1 (hypsC t h0 h7).2.2.2 (iblk m c 0 t) (iblk m c 1 t) xo xs,
   out5_C c (grid0.coords t) (ms0 t) (hs0 t) (ms1 t) (hs1 t) (ms2 t) (hs2 t) scM (Memref.isWhole_whole _) (hypsC t h0 h7).1 (hypsC t h0 h7).2.1 (hypsC t h0 h7).2.2.1 (hypsC t h0 h7).2.2.2 (iblk m c 0 t) (iblk m c 1 t) xo xs)
def outD (c : Dev nD) (t : Fin cfg0.N) (h7 : t.val % 8 = 7) (xo : Vec F S1x1 .f32) (xs : Vec F S1x4096 .f32) :
    Vec F S1x1 .f32 × Vec F S1x4096 .f32 :=
  (out4_D c (grid0.coords t) (ms0 t) (hs0 t) (ms1 t) (hs1 t) (ms2 t) (hs2 t) scM (Memref.isWhole_whole _) (hypsD t h7).1 (hypsD t h7).2.1 (hypsD t h7).2.2.1 (hypsD t h7).2.2.2 (iblk m c 0 t) (iblk m c 1 t) xo xs,
   out5_D c (grid0.coords t) (ms0 t) (hs0 t) (ms1 t) (hs1 t) (ms2 t) (hs2 t) scM (Memref.isWhole_whole _) (hypsD t h7).1 (hypsD t h7).2.1 (hypsD t h7).2.2.1 (hypsD t h7).2.2.2 (iblk m c 0 t) (iblk m c 1 t) xo xs)

/-! ## The accumulation over the grid -/

/-- The loss cell and the scratch row after the body at position `n`. -/
def outsAt (c : Dev nD) : (n : ℕ) → n < cfg0.N → Vec F S1x1 .f32 × Vec F S1x4096 .f32
  | 0, hn => outA m c ⟨0, hn⟩ rfl
  | n + 1, hn =>
    if h0 : (n + 1) % 8 = 0 then
      outB m c ⟨n + 1, hn⟩ h0 (Nat.succ_ne_zero n) (outsAt c n (Nat.lt_of_succ_lt hn)).1 (outsAt c n (Nat.lt_of_succ_lt hn)).2
    else if h7 : (n + 1) % 8 = 7 then
      outD m c ⟨n + 1, hn⟩ h7 (outsAt c n (Nat.lt_of_succ_lt hn)).1 (outsAt c n (Nat.lt_of_succ_lt hn)).2
    else
      outC m c ⟨n + 1, hn⟩ h0 h7 (outsAt c n (Nat.lt_of_succ_lt hn)).1 (outsAt c n (Nat.lt_of_succ_lt hn)).2

/-- The point before `t`. -/
abbrev prevLt (t : Fin cfg0.N) : t.val - 1 < cfg0.N := Nat.lt_of_le_of_lt (Nat.sub_le _ _) t.isLt

theorem outsAt_A (c : Dev nD) (t : Fin cfg0.N) (hz : t.val = 0) : outsAt m c t.val t.isLt = outA m c t hz := by
  obtain ⟨n, hn⟩ := t
  cases n with
  | zero => rfl
  | succ n => exact absurd hz (Nat.succ_ne_zero n)

theorem outsAt_B (c : Dev nD) (t : Fin cfg0.N) (h0 : t.val % 8 = 0) (hz : t.val ≠ 0) :
    outsAt m c t.val t.isLt = outB m c t h0 hz (outsAt m c (t.val - 1) (prevLt t)).1 (outsAt m c (t.val - 1) (prevLt t)).2 := by
  obtain ⟨n, hn⟩ := t
  cases n with
  | zero => exact absurd rfl hz
  | succ n => exact (dif_pos h0).trans rfl

theorem outsAt_C (c : Dev nD) (t : Fin cfg0.N) (h0 : ¬t.val % 8 = 0) (h7 : ¬t.val % 8 = 7) :
    outsAt m c t.val t.isLt = outC m c t h0 h7 (outsAt m c (t.val - 1) (prevLt t)).1 (outsAt m c (t.val - 1) (prevLt t)).2 := by
  obtain ⟨n, hn⟩ := t
  cases n with
  | zero => exact absurd (Nat.zero_mod 8) h0
  | succ n => exact (dif_neg h0).trans ((dif_neg h7).trans rfl)

theorem outsAt_D (c : Dev nD) (t : Fin cfg0.N) (h7 : t.val % 8 = 7) :
    outsAt m c t.val t.isLt = outD m c t h7 (outsAt m c (t.val - 1) (prevLt t)).1 (outsAt m c (t.val - 1) (prevLt t)).2 := by
  obtain ⟨n, hn⟩ := t
  cases n with
  | zero => exact absurd (show (0 : ℕ) % 8 = 7 from h7) (by decide)
  | succ n =>
    have h7' : (n + 1) % 8 = 7 := h7
    exact (dif_neg (by omega)).trans ((dif_pos h7').trans rfl)

end Cert.KernelIdeal.Body

end
-- ==== Proof.KI.Body.lean ====
/-
  The frame of the chamfer kernel's program. The region's invariant tracks the scratch row: before the first point
  it holds anything, before a later point what the point before left (`outsAt`'s second component). The proof data
  say that after point t the two input windows' buffers hold their blocks and the loss cell `outsAt`'s first
  component; the loss window is written back only after the last point, so before a later point its buffer still
  holds what the point before left. The body obligation splits a point into its case and applies that case's run.
  The launch is the frame run with a tracked invariant and host lines after the region.
-/
import proofs.«128816_g21801253994783_cont_8to1_138_5_alg».proof.Proof.KI.Outs
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class invariant, spelled over the scratch row's memref: the scratch row at anything, the generator register
    at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The region invariant before position `n`: the class's before the first point; afterwards the scratch row at
    what the point before left and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Before a point that is not the first the loss cell's buffer holds what the point before left: the window is
    written back after the last point only, and is live and uncut. -/
theorem before0_2_pos (c : Dev nD) (t : Fin cfg0.N) (hz : t.val ≠ 0) (d) :
    (dats m 0 c).before 2 t d = (outsAt m c (t.val - 1) (prevLt t)).1 := by
  have hN : t.val < 32 := lt_of_lt_of_eq t.isLt (show cfg0.N = 32 from N_0)
  rw [Dat.before_out_kept _ 2 rfl t hz (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, after0_0, after0_1, after0_2]
  have hN : t.val < 32 := lt_of_lt_of_eq t.isLt (show cfg0.N = 32 from N_0)
  by_cases hz : t.val = 0
  · rw [outsAt_A m c t hz]
    unfold outA out4_A out5_A; dsimp only
    rw [PhiS_castSucc m c t, PhiS_zero m c _ _ hz, PhiA_eq]
    iintro ⟨⟨HS, Hg⟩, Ho, ⟨%d0, H0⟩, ⟨%d1, H1⟩, ⟨%d2, H2⟩⟩
    iapply ((runA c (grid0.coords t) _ _ _ _ _ _ _ _ (hypsA t hz).1 (hypsA t hz).2.1 (hypsA t hz).2.2.1 (hypsA t hz).2.2.2 (iblk m c 0 t) (iblk m c 1 t)).2.2 Set.univ _)
    isplitl [H0]; · iexact H0
    isplitl [H1]; · iexact H1
    isplitl [H2]; · iexists _; iexact H2
    isplitl [HS]; · iexact HS
    iintro ⟨H0, H1, ⟨%e4, H4⟩, ⟨%e5, H5⟩⟩
    isplitl [H5 Hg]
    · isplitl [H5]
      · unfold owns; iexists _; isplitr
        swap; · iexact H5
        ipureintro; exact View.read_writes_of_cover _ _ _ _ _ (cover5_A c _ _ _ _ _ _ _ _ _ _ _ _ _ _ _ )
      iexact Hg
    isplitl [Ho]; · iexact Ho
    isplitl [H0]; · iexact H0
    isplitl [H1]; · iexact H1
    unfold owns; iexists _; isplitr
    swap; · iexact H4
    ipureintro; exact View.read_writes_of_cover _ _ _ _ _ (cover4_A c _ _ _ _ _ _ _ _ _ _ _ _ _ _ _ )
  · simp only [before0_2_pos m c t hz]
    rw [PhiS_castSucc m c t, PhiS_pos m c _ _ hz]
    by_cases h0 : t.val % 8 = 0
    · rw [outsAt_B m c t h0 hz]
      unfold outB out4_B out5_B; dsimp only
      iintro ⟨⟨HS, Hg⟩, Ho, ⟨%d0, H0⟩, ⟨%d1, H1⟩, ⟨%d2, H2⟩⟩
      iapply ((runB c (grid0.coords t) _ _ _ _ _ _ _ _ (hypsB t h0 hz).1 (hypsB t h0 hz).2.1 (hypsB t h0 hz).2.2.1 (hypsB t h0 hz).2.2.2 (iblk m c 0 t) (iblk m c 1 t) (outsAt m c (t.val - 1) (prevLt t)).1 (outsAt m c (t.val - 1) (prevLt t)).2).2.2 Set.univ _)
      isplitl [H0]; · iexact H0
      isplitl [H1]; · iexact H1
      isplitl [H2]; · iexact H2
      isplitl [HS]; · iexists _; iexact HS
      iintro ⟨H0, H1, ⟨%e4, H4⟩, ⟨%e5, H5⟩⟩
      isplitl [H5 Hg]
      · isplitl [H5]
        · unfold owns; iexists _; isplitr
          swap; · iexact H5
          ipureintro; exact View.read_writes_of_cover _ _ _ _ _ (cover5_B c _ _ _ _ _ _ _ _ _ _ _ _ _ _ _ _ _ )
        iexact Hg
      isplitl [Ho]; · iexact Ho
      isplitl [H0]; · iexact H0
      isplitl [H1]; · iexact H1
      unfold owns; iexists _; isplitr
      swap; · iexact H4
      ipureintro; exact View.read_writes_of_cover _ _ _ _ _ (cover4_B c _ _ _ _ _ _ _ _ _ _ _ _ _ _ _ _ _ )
    · by_cases h7 : t.val % 8 = 7
      · rw [outsAt_D m c t h7]
        unfold outD out4_D out5_D; dsimp only
        iintro ⟨⟨HS, Hg⟩, Ho, ⟨%d0, H0⟩, ⟨%d1, H1⟩, ⟨%d2, H2⟩⟩
        iapply ((runD c (grid0.coords t) _ _ _ _ _ _ _ _ (hypsD t h7).1 (hypsD t h7).2.1 (hypsD t h7).2.2.1 (hypsD t h7).2.2.2 (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e4, H4⟩, ⟨%e5, H5⟩⟩
        isplitl [H5 Hg]
        · isplitl [H5]
          · unfold owns; iexists _; isplitr
            swap; · iexact H5
            ipureintro; exact View.read_writes_of_cover _ _ _ _ _ (cover5_D c _ _ _ _ _ _ _ _ _ _ _ _ _ _ _ _ _ )
          iexact Hg
        isplitl [Ho]; · iexact Ho
        isplitl [H0]; · iexact H0
        isplitl [H1]; · iexact H1
        unfold owns; iexists _; isplitr
        swap; · iexact H4
        ipureintro; exact View.read_writes_of_cover _ _ _ _ _ (cover4_D c _ _ _ _ _ _ _ _ _ _ _ _ _ _ _ _ _ )
      · rw [outsAt_C m c t h0 h7]
        unfold outC out4_C out5_C; dsimp only
        iintro ⟨⟨HS, Hg⟩, Ho, ⟨%d0, H0⟩, ⟨%d1, H1⟩, ⟨%d2, H2⟩⟩
        iapply ((runC c (grid0.coords t) _ _ _ _ _ _ _ _ (hypsC t h0 h7).1 (hypsC t h0 h7).2.1 (hypsC t h0 h7).2.2.1 (hypsC t h0 h7).2.2.2 (iblk m c 0 t) (iblk m c 1 t) _ _).2.2 Set.univ _)
        isplitl [H0]; · iexact H0
        isplitl [H1]; · iexact H1
        isplitl [H2]; · iexact H2
        isplitl [HS]; · iexact HS
        iintro ⟨H0, H1, ⟨%e4, H4⟩, ⟨%e5, H5⟩⟩
        isplitl [H5 Hg]
        · isplitl [H5]
          · unfold owns; iexists _; isplitr
            swap; · iexact H5
            ipureintro; exact View.read_writes_of_cover _ _ _ _ _ (cover5_C c _ _ _ _ _ _ _ _ _ _ _ _ _ _ _ _ _ )
          iexact Hg
        isplitl [Ho]; · iexact Ho
        isplitl [H0]; · iexact H0
        isplitl [H1]; · iexact H1
        unfold owns; iexists _; isplitr
        swap; · iexact H4
        ipureintro; exact View.read_writes_of_cover _ _ _ _ _ (cover4_C c _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Pieces.lean ====
/-
  What each case leaves, as the body's arithmetic. The pieces a run found are whole-buffer stores, so a buffer's
  contents after the point are its last store's payload; a load that follows a store of the same buffer reads that
  store's payload back, and a load of a buffer not yet stored into reads what the point was handed. So:
    A: the loss cell ends at pay1(D, pay7) and the scratch row at pay3(D);
    B: pay1(D, xo) and pay3(D);   C: pay1(D, xo) and pay4(D, xs);
    D: pay5(pay4(D, xs), pay1(D, xo)) and pay4(D, xs),
  where D = pay6(x0, x1) is the tile's distances from the two input blocks.
-/
import proofs.«128816_g21801253994783_cont_8to1_138_5_alg».proof.Proof.KI.Outs
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles' offsets are zero. -/
theorem hz2 : (![0, 0] : Fin 2 → ℕ) = fun _ => 0 := funext fun a => by fin_cases a <;> rfl
theorem hz3 : (![0, 0, 0] : Fin 3 → ℕ) = fun _ => 0 := funext fun a => by fin_cases a <;> rfl

theorem out5_A_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) :
    out5_A c i arg2 harg2 arg3 harg3 arg4 harg4 arg5 harg5 hZ hF hN hL x0 x1 = k0_pay3 (k0_pay6 x0 x1) := by
  unfold out5_A
  rw [View.read_writes_eq_canon _ _ _ (cover5_A c i arg2 harg2 arg3 harg3 arg4 harg4 arg5 harg5 hZ hF hN hL x0 x1)]
  unfold runA; dsimp only; sl_unfold_words
  rw [View.canon_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

theorem out4_A_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : condZ i) (hF : condF i) (hN : ¬condN i) (hL : ¬condL i)
    (x0 : Vec F S1x512x3 .f32) (x1 : Vec F S1x3x4096 .f32) :
    out4_A c i arg2 harg2 arg3 harg3 arg4 harg4 arg5 harg5 hZ hF hN hL x0 x1 = k0_pay1 (k0_pay6 x0 x1) k0_pay7 := by
  unfold out4_A
  rw [View.read_writes_eq_canon _ _ _ (cover4_A c i arg2 harg2 arg3 harg3 arg4 harg4 arg5 harg5 hZ hF hN hL x0 x1)]
  unfold runA; dsimp only; sl_unfold_words
  rw [View.canon_cons_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

theorem out5_B_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) :
    out5_B c i arg2 harg2 arg3 harg3 arg4 harg4 arg5 harg5 hZ hF hN hL x0 x1 xo xs = k0_pay3 (k0_pay6 x0 x1) := by
  unfold out5_B
  rw [View.read_writes_eq_canon _ _ _ (cover5_B c i arg2 harg2 arg3 harg3 arg4 harg4 arg5 harg5 hZ hF hN hL x0 x1 xo xs)]
  unfold runB; dsimp only; sl_unfold_words
  rw [View.canon_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

theorem out4_B_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : condF i) (hN : ¬condN i) (hL : ¬condL i)
    (x0 : Vec F S1x512x3 .f32) (x1 : Vec F S1x3x4096 .f32) (xo : Vec F S1x1 .f32) (xs : Vec F S1x4096 .f32) :
    out4_B c i arg2 harg2 arg3 harg3 arg4 harg4 arg5 harg5 hZ hF hN hL x0 x1 xo xs = k0_pay1 (k0_pay6 x0 x1) xo := by
  unfold out4_B
  rw [View.read_writes_eq_canon _ _ _ (cover4_B c i arg2 harg2 arg3 harg3 arg4 harg4 arg5 harg5 hZ hF hN hL x0 x1 xo xs)]
  unfold runB; dsimp only; sl_unfold_words
  rw [View.canon_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

theorem out5_C_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) :
    out5_C c i arg2 harg2 arg3 harg3 arg4 harg4 arg5 harg5 hZ hF hN hL x0 x1 xo xs = k0_pay4 (k0_pay6 x0 x1) xs := by
  unfold out5_C
  rw [View.read_writes_eq_canon _ _ _ (cover5_C c i arg2 harg2 arg3 harg3 arg4 harg4 arg5 harg5 hZ hF hN hL x0 x1 xo xs)]
  unfold runC; dsimp only; sl_unfold_words
  rw [View.canon_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

theorem out4_C_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : ¬condL i)
    (x0 : Vec F S1x512x3 .f32) (x1 : Vec F S1x3x4096 .f32) (xo : Vec F S1x1 .f32) (xs : Vec F S1x4096 .f32) :
    out4_C c i arg2 harg2 arg3 harg3 arg4 harg4 arg5 harg5 hZ hF hN hL x0 x1 xo xs = k0_pay1 (k0_pay6 x0 x1) xo := by
  unfold out4_C
  rw [View.read_writes_eq_canon _ _ _ (cover4_C c i arg2 harg2 arg3 harg3 arg4 harg4 arg5 harg5 hZ hF hN hL x0 x1 xo xs)]
  unfold runC; dsimp only; sl_unfold_words
  rw [View.canon_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

theorem out5_D_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) :
    out5_D c i arg2 harg2 arg3 harg3 arg4 harg4 arg5 harg5 hZ hF hN hL x0 x1 xo xs = k0_pay4 (k0_pay6 x0 x1) xs := by
  unfold out5_D
  rw [View.read_writes_eq_canon _ _ _ (cover5_D c i arg2 harg2 arg3 harg3 arg4 harg4 arg5 harg5 hZ hF hN hL x0 x1 xo xs)]
  unfold runD; dsimp only; sl_unfold_words
  rw [View.canon_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

theorem out4_D_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x4096 .f32) (harg5 : arg5.IsWhole) (hZ : ¬condZ i) (hF : ¬condF i) (hN : condN i) (hL : condL i)
    (x0 : Vec F S1x512x3 .f32) (x1 : Vec F S1x3x4096 .f32) (xo : Vec F S1x1 .f32) (xs : Vec F S1x4096 .f32) :
    out4_D c i arg2 harg2 arg3 harg3 arg4 harg4 arg5 harg5 hZ hF hN hL x0 x1 xo xs = k0_pay5 (k0_pay4 (k0_pay6 x0 x1) xs) (k0_pay1 (k0_pay6 x0 x1) xo) := by
  unfold out4_D
  rw [View.read_writes_eq_canon _ _ _ (cover4_D c i arg2 harg2 arg3 harg3 arg4 harg4 arg5 harg5 hZ hF hN hL x0 x1 xo xs)]
  unfold runD; dsimp only; sl_unfold_words
  rw [View.canon_cons_unit_zero hz2]
  simp only [View.readAt_eq_ld, harg2.read_unread, harg3.read_unread, harg4.read_unread, harg5.read_unread,
    View.ld_unit_zero (S := S1x512x3) hz3, View.ld_unit_zero (S := S1x3x4096) hz3, View.ld_unit_zero (S := S1x1) hz2,
    View.ld_unit_zero (S := S1x4096) hz2, View.readCov_unit_zero (S := S1x1) _ hz2, View.readCov_unit_zero (S := S1x4096) _ hz2]

end Cert.KernelIdeal.Body

end
-- ==== Proof.Val.Spec.lean ====
/-
  The chamfer loss over the reals. For two clouds of 4 batches of 4096 points in ℝ³, `sq b n m` is the squared
  distance of prediction point n to target point m of batch b in its expanded form |p|² + |q|² − 2⟨p,q⟩, clamped
  below at 0; `rowMin` is a prediction point's distance to its nearest target point, `colMin` a target point's to
  its nearest prediction point, and `loss` the sum of both over all points divided by 2 · 16384 = 32768.

  The tiled kernel visits 32 tiles: tile t covers the 512 prediction points 512·(t % 8) … of batch t / 8 against
  all 4096 target points of that batch. `acc n` is what it holds after tile n: the loss so far (each tile adds its
  row minima's sum, and a batch's last tile adds the batch's column minima's sum, each times 1/32768) and the running
  column minima of the current batch.
-/
import Idealize.ShloMosaic.PureOps.Ideal

noncomputable section

open scoped BigOperators

namespace Cert.Chamfer

/-- A cloud: batch, point, coordinate. -/
abbrev Cloud := Fin 4 → Fin 4096 → Fin 3 → ℝ

/-- The weight of one point's nearest-neighbour distance in the loss: 1/(2 · 4 · 4096). -/
abbrev w : ℝ := 1 / 32768

def nrm (p : Cloud) (b : Fin 4) (n : Fin 4096) : ℝ := ∑ d : Fin 3, p b n d * p b n d
def dot (p q : Cloud) (b : Fin 4) (n m : Fin 4096) : ℝ := ∑ d : Fin 3, p b n d * q b m d
/-- The clamped expanded squared distance. -/
def sq (p q : Cloud) (b : Fin 4) (n m : Fin 4096) : ℝ := max ((nrm p b n + nrm q b m) - 2 * dot p q b n m) 0
def rowMin (p q : Cloud) (b : Fin 4) (n : Fin 4096) : ℝ := Finset.univ.inf' Finset.univ_nonempty fun m => sq p q b n m
def colMin (p q : Cloud) (b : Fin 4) (m : Fin 4096) : ℝ := Finset.univ.inf' Finset.univ_nonempty fun n => sq p q b n m
/-- The chamfer loss. -/
def loss (p q : Cloud) : ℝ := ((∑ b : Fin 4, ∑ n : Fin 4096, rowMin p q b n) + (∑ b : Fin 4, ∑ m : Fin 4096, colMin p q b m)) / 32768

/-! ## The tiles -/

/-- Tile `t`'s batch and its row `i`'s prediction point. -/
def tileB (t : ℕ) : Fin 4 := ⟨t / 8 % 4, Nat.mod_lt _ (by decide)⟩
def tileN (t : ℕ) (i : Fin 512) : Fin 4096 := ⟨512 * (t % 8) + i.val, by have := i.isLt; omega⟩
/-- Tile `t`'s distances: row i, column j. -/
def tile (p q : Cloud) (t : ℕ) (i : Fin 512) (j : Fin 4096) : ℝ := sq p q (tileB t) (tileN t i) j
def tileRowSum (p q : Cloud) (t : ℕ) : ℝ := ∑ i : Fin 512, Finset.univ.inf' Finset.univ_nonempty fun j => tile p q t i j
def tileColMin (p q : Cloud) (t : ℕ) (j : Fin 4096) : ℝ := Finset.univ.inf' Finset.univ_nonempty fun i => tile p q t i j

/-- The loss so far and the running column minima after tile `n`. -/
def acc (p q : Cloud) : ℕ → ℝ × (Fin 4096 → ℝ)
  | 0 => (0 + tileRowSum p q 0 * w, tileColMin p q 0)
  | n + 1 =>
    let s' : Fin 4096 → ℝ := if (n + 1) % 8 = 0 then tileColMin p q (n + 1) else fun j => min ((acc p q n).2 j) (tileColMin p q (n + 1) j)
    let l1 : ℝ := (acc p q n).1 + tileRowSum p q (n + 1) * w
    (if (n + 1) % 8 = 7 then l1 + (∑ j : Fin 4096, s' j) * w else l1, s')

end Cert.Chamfer

end
-- ==== Proof.Val.Payloads.lean ====
/-
  The kernel body's seven payloads read at an index over the reals: when the values they are applied to are real
  numbers, each payload's element is the real number the tile arithmetic gives.
-/
import proofs.«128816_g21801253994783_cont_8to1_138_5_alg».proof.Proof.Gen.KernelIdeal.Skeleton
import proofs.«128816_g21801253994783_cont_8to1_138_5_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Chamfer.Payloads

open Cert.KernelIdeal Cert.KernelIdeal.Gen Cert.Chamfer
open Idealize.ShloMosaic Idealize.ShloMosaic.ValueIdx

/-! ## The constants -/

/-- The pattern of 2. -/
theorem ofBits_two : Ideal.ofBits .f32 0x40000000#32 = ((2 : ℝ) : EReal) := by
  simp [Ideal.ofBits, Ideal.ieee, -EReal.coe_mul]; norm_num

/-- The pattern of 1/32768. -/
theorem ofBits_w : Ideal.ofBits .f32 0x38000000#32 = ((w : ℝ) : EReal) := by
  simp [Ideal.ofBits, Ideal.ieee, -EReal.coe_mul]; norm_num

/-- The pattern of +∞. -/
theorem ofBits_top : Ideal.ofBits .f32 0x7F800000#32 = (⊤ : EReal) := by
  simp [Ideal.ofBits, Ideal.ieee]

/-! ## Coercions, sums and least values -/

/-- The coercion of reals into the extended reals keeps minima … -/
theorem coe_min (x y : ℝ) : ((min x y : ℝ) : EReal) = min (x : EReal) (y : EReal) :=
  EReal.coe_strictMono.monotone.map_min

/-- … and maxima. -/
theorem coe_max (x y : ℝ) : ((max x y : ℝ) : EReal) = max (x : EReal) (y : EReal) :=
  EReal.coe_strictMono.monotone.map_max

/-- A finite sum of real coercions is the coercion of the sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The fold of min from +∞ over real coercions on a nonempty set is the coercion of the least value. -/
theorem fold_min_top_coe {ι : Type} (s : Finset ι) (hs : s.Nonempty) (f : ι → ℝ) :
    s.fold min (⊤ : EReal) (fun k => ((f k : ℝ) : EReal)) = ((s.inf' hs f : ℝ) : EReal) := by
  induction hs using Finset.Nonempty.cons_induction with
  | singleton a => simp
  | cons a s ha hs ih =>
    rw [Finset.fold_cons, ih, Finset.inf'_cons hs, coe_min]

/-- A minimum reduction over one axis: the fold of min from the accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## Layout operations and reduced indices by coordinates -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over a matrix reduced along its columns, the index over row `i` with column `k` is `(i, k)`. -/
theorem lift_axis1 {m n : ℕ} (h : (⟨2, ![m, n]⟩ : Shape).Reduces [1] ⟨1, ![m]⟩) (i : Fin m) (k : Fin n) :
    h.lift (ix1 i) k = ix2 i k := by
  funext c
  match c with
  | ⟨0, _⟩ => exact Fin.ext rfl
  | ⟨1, _⟩ => exact Fin.ext rfl

/-- Over a matrix reduced along its rows, the index over column `j` with row `k` is `(k, j)`. -/
theorem lift_axis0 {m n : ℕ} (h : (⟨2, ![m, n]⟩ : Shape).Reduces [0] ⟨1, ![n]⟩) (j : Fin n) (k : Fin m) :
    h.lift (ix1 j) k = ix2 k j := by
  funext c
  match c with
  | ⟨0, _⟩ => exact Fin.ext rfl
  | ⟨1, _⟩ => exact Fin.ext rfl

/-- A minimum reduction from +∞ over one axis of real values is the least of them. -/
theorem minRed_real {s t : Shape} {a : Fin s.rank} {n : ℕ} [NeZero n] (hn : s.size a = n) (src : FVec Ideal s .f32)
    (h : s.Reduces [a] t) (hφ : FKind.Formats .f32) (hacc : (0x7F800000#32 : BitVec 32) = FKind.minimumf.neutral .f32 hφ) (j : t.Idx)
    (f : Fin n → ℝ) (hf : ∀ k : Fin (s.size a), src (h.lift j k) = ((f (k.cast hn) : ℝ) : EReal)) :
    multiReduction .minimumf [a] t src 0x7F800000#32 h hφ hacc j
      = ((Finset.univ.inf' Finset.univ_nonempty f : ℝ) : EReal) := by
  subst hn
  refine (multiReduction_minimumf_single src _ h hφ hacc j).trans ?_
  have e : (src ∘ h.lift j) = fun k => ((f k : ℝ) : EReal) := funext fun k => hf k
  rw [e]
  show Finset.univ.fold min (Ideal.ofBits .f32 0x7F800000#32) _ = _
  rw [ofBits_top]
  exact fold_min_top_coe _ _ _

/-! ## The payloads -/

/-- The zero the loss cell is reset to. -/
theorem pay7_real : (k0_pay7 (F := Ideal)) (ix2 0 0) = ((0 : ℝ) : EReal) := by
  unfold k0_pay7
  show Ideal.ofBits .f32 0x00000000#32 = _
  rw [Ideal.ofBits_zero_f32]; rfl

/-- A prediction block's row norm, spread over the tile's columns. -/
theorem rowNorm_real (v1 : FVec Ideal S512x3 .f32) (a : Fin 512 → Fin 3 → ℝ) (hv1 : ∀ i d, v1 (ix2 i d) = ((a i d : ℝ) : EReal))
    (i : Fin 512) (j : Fin 4096) :
    broadcastTo S512x4096 (shapeCast S512x1 (multiReduction (F := Ideal) .add [1] S512 (mulf v1 v1) 0x00000000#32 reduces_S512x3_S512 (.inl rfl) rfl) shapeCasts_S512_S512x1) broadcasts_S512x1_S512x4096 (ix2 i j)
      = ((∑ d : Fin 3, a i d * a i d : ℝ) : EReal) := by
  refine (broadcastTo_a1_ab_apply _ _ i j).trans ?_
  refine (shapeCast_a_a1_apply _ _ i 0).trans ?_
  refine (Ideal.multiReduction_add_single _ _ reduces_S512x3_S512 _ _ (ix1 i)).trans ?_
  show ∑ k : Fin 3, (mulf v1 v1) (reduces_S512x3_S512.lift (ix1 i) k) = _
  rw [← coe_sum]
  refine Finset.sum_congr rfl fun k _ => ?_
  refine (congrArg (mulf v1 v1) (lift_axis1 reduces_S512x3_S512 i k)).trans ?_
  rw [mulf_apply, hv1, ← EReal.coe_mul]

/-- A target block's column norm, spread over the tile's rows. -/
theorem colNorm_real (v3 : FVec Ideal S3x4096 .f32) (b : Fin 3 → Fin 4096 → ℝ) (hv3 : ∀ d j, v3 (ix2 d j) = ((b d j : ℝ) : EReal))
    (i : Fin 512) (j : Fin 4096) :
    broadcastTo S512x4096 (shapeCast S1x4096 (multiReduction (F := Ideal) .add [0] S4096 (mulf v3 v3) 0x00000000#32 reduces_S3x4096_S4096 (.inl rfl) rfl) shapeCasts_S4096_S1x4096) broadcasts_S1x4096_S512x4096 (ix2 i j)
      = ((∑ d : Fin 3, b d j * b d j : ℝ) : EReal) := by
  refine (broadcastTo_1b_ab_apply _ _ i j).trans ?_
  refine (shapeCast_a_1a_apply _ _ 0 j).trans ?_
  refine (Ideal.multiReduction_add_single _ _ reduces_S3x4096_S4096 _ _ (ix1 j)).trans ?_
  show ∑ k : Fin 3, (mulf v3 v3) (reduces_S3x4096_S4096.lift (ix1 j) k) = _
  rw [← coe_sum]
  refine Finset.sum_congr rfl fun k _ => ?_
  refine (congrArg (mulf v3 v3) (lift_axis0 reduces_S3x4096_S4096 j k)).trans ?_
  rw [mulf_apply, hv3, ← EReal.coe_mul]

/-- Coordinate `o` of the prediction block's rows, spread over the tile's columns. -/
theorem bcol_real (v1 : FVec Ideal S512x3 .f32) (a : Fin 512 → Fin 3 → ℝ) (hv1 : ∀ i d, v1 (ix2 i d) = ((a i d : ℝ) : EReal))
    (o : ℕ) (ho : o < 3) (h1 : S512x3.Slices ![0, o] S512x1) (i : Fin 512) (j : Fin 4096) :
    broadcastTo S512x4096 (extractStridedSlice S512x1 ![0, o] v1 h1) broadcasts_S512x1_S512x4096 (ix2 i j)
      = ((a i ⟨o, ho⟩ : ℝ) : EReal) := by
  refine (broadcastTo_a1_ab_apply _ _ i j).trans ?_
  exact (slice2_axis1_apply o v1 h1 i 0 ⟨o, ho⟩ rfl).trans (hv1 i ⟨o, ho⟩)

/-- Coordinate `o` of the target block's columns, spread over the tile's rows. -/
theorem brow_real (v3 : FVec Ideal S3x4096 .f32) (b : Fin 3 → Fin 4096 → ℝ) (hv3 : ∀ d j, v3 (ix2 d j) = ((b d j : ℝ) : EReal))
    (o : ℕ) (ho : o < 3) (h3 : S3x4096.Slices ![o, 0] S1x4096) (i : Fin 512) (j : Fin 4096) :
    broadcastTo S512x4096 (extractStridedSlice S1x4096 ![o, 0] v3 h3) broadcasts_S1x4096_S512x4096 (ix2 i j)
      = ((b ⟨o, ho⟩ j : ℝ) : EReal) := by
  refine (broadcastTo_1b_ab_apply _ _ i j).trans ?_
  exact (slice2_axis0_apply o v3 h3 0 j ⟨o, ho⟩ rfl).trans (hv3 ⟨o, ho⟩ j)

/-- The tile's clamped squared distances from real blocks: row i of the prediction block `a`, column j of the
    transposed target block `b`. -/
theorem pay6_real (x0 : Vec Ideal S1x512x3 .f32) (x1 : Vec Ideal S1x3x4096 .f32) (a : Fin 512 → Fin 3 → ℝ) (b : Fin 3 → Fin 4096 → ℝ)
    (hx0 : ∀ i d, x0 (ix3 0 i d) = ((a i d : ℝ) : EReal)) (hx1 : ∀ d j, x1 (ix3 0 d j) = ((b d j : ℝ) : EReal))
    (i : Fin 512) (j : Fin 4096) :
    k0_pay6 (F := Ideal) x0 x1 (ix2 i j)
      = ((max (((∑ d : Fin 3, a i d * a i d) + (∑ d : Fin 3, b d j * b d j)) - 2 * (∑ d : Fin 3, a i d * b d j)) 0 : ℝ) : EReal) := by
  unfold k0_pay6
  have hv1 : ∀ i d, shapeCast S512x3 x0 shapeCasts_S1x512x3_S512x3 (ix2 i d) = ((a i d : ℝ) : EReal) := fun i d =>
    (shapeCast_1ab_ab_apply _ _ i d).trans (hx0 i d)
  have hv3 : ∀ d j, shapeCast S3x4096 x1 shapeCasts_S1x3x4096_S3x4096 (ix2 d j) = ((b d j : ℝ) : EReal) := fun d j =>
    (shapeCast_1ab_ab_apply _ _ d j).trans (hx1 d j)
  generalize shapeCast S512x3 x0 shapeCasts_S1x512x3_S512x3 = v1 at hv1 ⊢
  generalize shapeCast S3x4096 x1 shapeCasts_S1x3x4096_S3x4096 = v3 at hv3 ⊢
  simp only [maximumf_apply, subf_apply, addf_apply, mulf_apply, broadcast_apply]
  rw [rowNorm_real v1 a hv1 i j, colNorm_real v3 b hv3 i j,
    bcol_real v1 a hv1 0 (by decide) _ i j, brow_real v3 b hv3 0 (by decide) _ i j,
    bcol_real v1 a hv1 1 (by decide) _ i j, brow_real v3 b hv3 1 (by decide) _ i j,
    bcol_real v1 a hv1 2 (by decide) _ i j, brow_real v3 b hv3 2 (by decide) _ i j]
  simp only [Ideal.ofBits_def, ofBits_two, Ideal.ofBits_zero_f32, ← EReal.coe_mul, ← EReal.coe_add, ← EReal.coe_sub]
  rw [← EReal.coe_zero, ← coe_max, Fin.sum_univ_three (fun d => a i d * b d j)]
  rfl

/-- The loss cell after a tile: the loss before plus the tile's row minima's sum times 1/32768. -/
theorem pay1_real (d : FVec Ideal S512x4096 .f32) (dr : Fin 512 → Fin 4096 → ℝ) (hd : ∀ i j, d (ix2 i j) = ((dr i j : ℝ) : EReal))
    (L : Vec Ideal S1x1 .f32) (l : ℝ) (hL : L (ix2 0 0) = ((l : ℝ) : EReal)) :
    k0_pay1 (F := Ideal) d L (ix2 0 0)
      = ((l + (∑ i : Fin 512, Finset.univ.inf' Finset.univ_nonempty fun j => dr i j) * w : ℝ) : EReal) := by
  unfold k0_pay1
  rw [addf_apply, mulf_apply, broadcast_apply, shapeCast_self]
  have e0 : ∀ i : Fin 512, multiReduction (F := Ideal) .minimumf [1] S512 d 0x7F800000#32 reduces_S512x4096_S512 (.inl rfl) rfl (ix1 i)
      = ((Finset.univ.inf' Finset.univ_nonempty fun j => dr i j : ℝ) : EReal) := fun i =>
    minRed_real (n := 4096) rfl d reduces_S512x4096_S512 _ _ (ix1 i) (fun j => dr i j)
      (fun k => (congrArg d (lift_axis1 _ i k)).trans (hd i k))
  have e1 : shapeCast S1x1 (multiReduction (F := Ideal) .add [0] S1 (shapeCast S512x1 (multiReduction (F := Ideal) .minimumf [1] S512 d 0x7F800000#32 reduces_S512x4096_S512 (.inl rfl) rfl) shapeCasts_S512_S512x1) 0x00000000#32 reduces_S512x1_S1 (.inl rfl) rfl) shapeCasts_S1_S1x1 (ix2 0 0)
      = ((∑ i : Fin 512, Finset.univ.inf' Finset.univ_nonempty fun j => dr i j : ℝ) : EReal) := by
    refine (shapeCast_a_1a_apply _ _ 0 0).trans ?_
    refine (Ideal.multiReduction_add_single _ _ reduces_S512x1_S1 _ _ (ix1 0)).trans ?_
    rw [← coe_sum]
    refine Finset.sum_congr rfl fun k _ => ?_
    refine (congrArg _ (lift_axis0 reduces_S512x1_S1 0 k)).trans ?_
    exact (shapeCast_a_a1_apply _ _ k 0).trans (e0 k)
  rw [e1, hL]
  show _ + _ * Ideal.ofBits .f32 0x38000000#32 = _
  rw [ofBits_w, ← EReal.coe_mul, ← EReal.coe_add]

/-- The tile's column minima before the identity cast. -/
theorem pay2_real (d : FVec Ideal S512x4096 .f32) (dr : Fin 512 → Fin 4096 → ℝ) (hd : ∀ i j, d (ix2 i j) = ((dr i j : ℝ) : EReal))
    (j : Fin 4096) :
    k0_pay2 (F := Ideal) d (ix2 0 j) = ((Finset.univ.inf' Finset.univ_nonempty fun i => dr i j : ℝ) : EReal) := by
  unfold k0_pay2
  refine (shapeCast_a_1a_apply _ _ 0 j).trans ?_
  exact minRed_real (n := 512) rfl d reduces_S512x4096_S4096 _ _ (ix1 j) (fun i => dr i j)
    (fun k => (congrArg d (lift_axis0 _ j k)).trans (hd k j))

/-- The tile's column minima. -/
theorem pay3_real (d : FVec Ideal S512x4096 .f32) (dr : Fin 512 → Fin 4096 → ℝ) (hd : ∀ i j, d (ix2 i j) = ((dr i j : ℝ) : EReal))
    (j : Fin 4096) :
    k0_pay3 (F := Ideal) d (ix2 0 j) = ((Finset.univ.inf' Finset.univ_nonempty fun i => dr i j : ℝ) : EReal) := by
  unfold k0_pay3
  rw [shapeCast_self]
  exact pay2_real d dr hd j

/-- The running column minima folded with the tile's. -/
theorem pay4_real (d : FVec Ideal S512x4096 .f32) (dr : Fin 512 → Fin 4096 → ℝ) (hd : ∀ i j, d (ix2 i j) = ((dr i j : ℝ) : EReal))
    (S : Vec Ideal S1x4096 .f32) (s : Fin 4096 → ℝ) (hS : ∀ j, S (ix2 0 j) = ((s j : ℝ) : EReal)) (j : Fin 4096) :
    k0_pay4 (F := Ideal) d S (ix2 0 j) = ((min (s j) (Finset.univ.inf' Finset.univ_nonempty fun i => dr i j) : ℝ) : EReal) := by
  unfold k0_pay4
  rw [shapeCast_self, minimumf_apply, pay2_real d dr hd j, hS j, coe_min]

/-- The index over the one row with column k. -/
theorem lift_row1 (j : S1.Idx) (k : Fin 4096) : reduces_S1x4096_S1.lift j k = ix2 (0 : Fin 1) k := by
  funext c
  match c with
  | ⟨0, _⟩ => exact (show ∀ x y : Fin 1, x = y from fun x y => Subsingleton.elim x y) _ _
  | ⟨1, _⟩ => exact Fin.ext rfl

/-- The loss cell after a batch's last tile: plus the running column minima's sum times 1/32768. -/
theorem pay5_real (S : Vec Ideal S1x4096 .f32) (s : Fin 4096 → ℝ) (hS : ∀ j, S (ix2 0 j) = ((s j : ℝ) : EReal))
    (L : Vec Ideal S1x1 .f32) (l : ℝ) (hL : L (ix2 0 0) = ((l : ℝ) : EReal)) :
    k0_pay5 (F := Ideal) S L (ix2 0 0) = ((l + (∑ j : Fin 4096, s j) * w : ℝ) : EReal) := by
  unfold k0_pay5
  rw [addf_apply, mulf_apply, broadcast_apply, shapeCast_self]
  have e1 : shapeCast S1x1 (multiReduction (F := Ideal) .add [1] S1 S 0x00000000#32 reduces_S1x4096_S1 (.inl rfl) rfl) shapeCasts_S1_S1x1 (ix2 0 0)
      = ((∑ j : Fin 4096, s j : ℝ) : EReal) := by
    refine (shapeCast_a_1a_apply _ _ 0 0).trans ?_
    refine (Ideal.multiReduction_add_single S _ reduces_S1x4096_S1 _ _ (ix1 0)).trans ?_
    rw [← coe_sum]
    exact Finset.sum_congr rfl fun k _ => (congrArg S (lift_row1 _ k)).trans (hS k)
  rw [e1, hL]
  show _ + _ * Ideal.ofBits .f32 0x38000000#32 = _
  rw [ofBits_w, ← EReal.coe_mul, ← EReal.coe_add]

end Cert.Chamfer.Payloads

end
-- ==== Proof.Val.Blocks.lean ====
/-
  The two input windows' blocks at a grid point, read at an element, are elements of the argument arrays: the
  prediction window's block at point t is rows 512·(t % 8) … of batch t / 8 of the prediction array; the target
  window's block is batch t / 8 of the transposed target array, which a host transpose wrote before the region.
-/
import proofs.«128816_g21801253994783_cont_8to1_138_5_alg».proof.Proof.Gen.KernelIdeal.Frame
import proofs.«128816_g21801253994783_cont_8to1_138_5_alg».proof.Proof.Val.Spec
import Idealize.ShloMosaic.Lib.ValueIdx
import Idealize.ShloMosaic.Lib.Pipeline.Value
import Idealize.ShloMosaic.Lib.StableHlo.Run

noncomputable section

open scoped BigOperators

namespace Cert.Chamfer.Blocks

open Cert.KernelIdeal Cert.KernelIdeal.Gen Cert.Chamfer
open Idealize.ShloMosaic Idealize.ShloMosaic.TcCoe Idealize.ShloMosaic.ValueIdx Idealize.SL.Sem

variable (m : (ℓ : Loc nD τ sig) → Buf (Elt Ideal) ℓ)

/-- The two blocks and the two argument arrays at their literal types. -/
abbrev blk0 (c : Dev nD) (t : Fin cfg0.N) : Vec Ideal S1x512x3 .f32 := iblk m c 0 t
abbrev blk1 (c : Dev nD) (t : Fin cfg0.N) : Vec Ideal S1x3x4096 .f32 := iblk m c 1 t
abbrev arr0 (c : Dev nD) : Vec Ideal S4x4096x3 .f32 := m ((c : Thread nD τ).loc main_arg0)
abbrev arr1 (c : Dev nD) : Vec Ideal S4x4096x3 .f32 := m ((c : Thread nD τ).loc main_arg1)

/-- The prediction window's block indices over the grid: batch t / 8, row block t % 8, coordinate block 0. -/
theorem blk0_index : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- The target window's block indices over the grid: batch t / 8, and 0 on the other two axes. -/
theorem blk1_index : ∀ t : Fin cfg0.N, win0_1.index t (0 : Fin 3) = t.val / 8 ∧ win0_1.index t (1 : Fin 3) = 0
    ∧ win0_1.index t (2 : Fin 3) = 0 :=
  (by decide +kernel : ∀ t : Fin grid0.N, _)

theorem blk0_apply (c : Dev nD) (t : Fin cfg0.N) (i : Fin 512) (d : Fin 3) :
    blk0 m c t (ix3 0 i d) = arr0 m c (ix3 (tileB t.val) (tileN t.val i) d) := by
  show V m c main_arg0 (((cfg0.win 0).blk t).view.emb (ix3 0 i d)) = _
  rw [V_main_arg0]
  refine congrArg _ ?_
  obtain ⟨e0, e1, e2⟩ := blk0_index t
  have ht : t.val < 32 := t.isLt
  funext a; apply Fin.ext
  match a with
  | ⟨0, _⟩ => show win0_0.index t (0 : Fin 3) * 1 + 1 * 0 = t.val / 8 % 4; omega
  | ⟨1, _⟩ => show win0_0.index t (1 : Fin 3) * 512 + 1 * i.val = 512 * (t.val % 8) + i.val; omega
  | ⟨2, _⟩ => show win0_0.index t (2 : Fin 3) * 3 + 1 * d.val = d.val; omega

/-- The array the target window stages is the transpose, on the last two axes, of the target array as launched. -/
theorem blk1_array (c : Dev nD) : (V m c main_v0 : S4x3x4096.Idx → Elt Ideal .f32)
    = transpose S4x3x4096 [0, 2, 1] (arr1 m c) Facts₀.transposes_S4x4096x3_S4x3x4096_0_2_1 := by
  show StableHlo.after hostOps0 (fun b => m (c, b)) (Proc.devRef .tc main_v0) = _
  after_results

theorem blk1_apply (c : Dev nD) (t : Fin cfg0.N) (d : Fin 3) (j : Fin 4096) :
    blk1 m c t (ix3 0 d j) = arr1 m c (ix3 (tileB t.val) j d) := by
  show V m c main_v0 (((cfg0.win 1).blk t).view.emb (ix3 0 d j)) = _
  rw [blk1_array]
  obtain ⟨e0, e1, e2⟩ := blk1_index t
  have ht : t.val < 32 := t.isLt
  refine transpose_apply _ _ _ _ (ix3 (tileB t.val) j d) fun b => ?_
  match b with
  | ⟨0, _⟩ => show t.val / 8 % 4 = win0_1.index t (0 : Fin 3) * 1 + 1 * 0; omega
  | ⟨1, _⟩ => show d.val = win0_1.index t (1 : Fin 3) * 3 + 1 * d.val; omega
  | ⟨2, _⟩ => show j.val = win0_1.index t (2 : Fin 3) * 4096 + 1 * j.val; omega

end Cert.Chamfer.Blocks

end
-- ==== Proof.Val.KernelValue.lean ====
/-
  The kernel's accumulation over real clouds is the specification's. At every grid point the tile's distances, read
  off the two input blocks, are the specification's tile; so by induction on the point the loss cell holds
  `(acc p q n).1` and the scratch row `(acc p q n).2` after point n: point 0 starts from zero, a batch's first tile
  overwrites the running column minima, a later tile folds into them, and a batch's last tile adds their sum.
-/
import proofs.«128816_g21801253994783_cont_8to1_138_5_alg».proof.Proof.KI.Pieces
import proofs.«128816_g21801253994783_cont_8to1_138_5_alg».proof.Proof.Val.Payloads
import proofs.«128816_g21801253994783_cont_8to1_138_5_alg».proof.Proof.Val.Blocks

noncomputable section

open scoped BigOperators

namespace Cert.Chamfer.KernelValue

open Cert.KernelIdeal Cert.KernelIdeal.Gen Cert.KernelIdeal.Body Cert.Chamfer Cert.Chamfer.Payloads Cert.Chamfer.Blocks
open Idealize.ShloMosaic Idealize.ShloMosaic.TcCoe Idealize.ShloMosaic.ValueIdx Idealize.SL.Sem

variable (m : (ℓ : Loc nD τ sig) → Buf (Elt Ideal) ℓ)

/-- The specification's accumulation, one step unfolded. -/
theorem acc_succ_snd (p q : Cloud) (n : ℕ) :
    (acc p q (n + 1)).2 = if (n + 1) % 8 = 0 then tileColMin p q (n + 1) else fun j => min ((acc p q n).2 j) (tileColMin p q (n + 1) j) := rfl
theorem acc_succ_fst (p q : Cloud) (n : ℕ) :
    (acc p q (n + 1)).1 = if (n + 1) % 8 = 7 then ((acc p q n).1 + tileRowSum p q (n + 1) * w) + (∑ j : Fin 4096, (acc p q (n + 1)).2 j) * w
      else (acc p q n).1 + tileRowSum p q (n + 1) * w := rfl

/-- The tile's distances at point `t`, from the two input blocks. -/
abbrev Dt (c : Dev nD) (t : Fin cfg0.N) : FVec Ideal S512x4096 .f32 := k0_pay6 (F := Ideal) (blk0 m c t) (blk1 m c t)

/-- Over real clouds the tile's distances are the specification's tile. -/
theorem Dt_real (c : Dev nD) (p q : Cloud)
    (h0 : ∀ b n d, arr0 m c (ix3 b n d) = ((p b n d : ℝ) : EReal)) (h1 : ∀ b n d, arr1 m c (ix3 b n d) = ((q b n d : ℝ) : EReal))
    (t : Fin cfg0.N) (i : Fin 512) (j : Fin 4096) :
    Dt m c t (ix2 i j) = ((tile p q t.val i j : ℝ) : EReal) := by
  refine (pay6_real (blk0 m c t) (blk1 m c t) (fun i d => p (tileB t.val) (tileN t.val i) d) (fun d j => q (tileB t.val) j d)
    (fun i d => (blk0_apply m c t i d).trans (h0 _ _ _)) (fun d j => (blk1_apply m c t d j).trans (h1 _ _ _)) i j).trans ?_
  rfl

/-- After point `n` the loss cell holds the specification's loss so far and the scratch row its running column minima. -/
theorem outsAt_real (c : Dev nD) (p q : Cloud)
    (h0 : ∀ b n d, arr0 m c (ix3 b n d) = ((p b n d : ℝ) : EReal)) (h1 : ∀ b n d, arr1 m c (ix3 b n d) = ((q b n d : ℝ) : EReal)) :
    ∀ (n : ℕ) (hn : n < cfg0.N),
      (outsAt m c n hn).1 (ix2 0 0) = (((acc p q n).1 : ℝ) : EReal)
      ∧ ∀ j : Fin 4096, (outsAt m c n hn).2 (ix2 0 j) = (((acc p q n).2 j : ℝ) : EReal)
  | 0, hn => by
    have hd := Dt_real m c p q h0 h1 ⟨0, hn⟩
    have e : outsAt m c 0 hn = outA m c ⟨0, hn⟩ rfl := outsAt_A m c ⟨0, hn⟩ rfl
    rw [e]; unfold outA; dsimp only
    rw [out4_A_eq, out5_A_eq]
    exact ⟨pay1_real (Dt m c ⟨0, hn⟩) (tile p q 0) hd _ 0 pay7_real, fun j => pay3_real (Dt m c ⟨0, hn⟩) (tile p q 0) hd j⟩
  | n + 1, hn => by
    obtain ⟨ihL, ihS⟩ := outsAt_real c p q h0 h1 n (Nat.lt_of_succ_lt hn)
    have hd := Dt_real m c p q h0 h1 ⟨n + 1, hn⟩
    by_cases hm0 : (n + 1) % 8 = 0
    · have e : outsAt m c (n + 1) hn = outB m c ⟨n + 1, hn⟩ hm0 (Nat.succ_ne_zero n) (outsAt m c n (Nat.lt_of_succ_lt hn)).1 (outsAt m c n (Nat.lt_of_succ_lt hn)).2 :=
        outsAt_B m c ⟨n + 1, hn⟩ hm0 (Nat.succ_ne_zero n)
      rw [e]; unfold outB; dsimp only
      rw [out4_B_eq, out5_B_eq, acc_succ_fst, acc_succ_snd, if_neg (by omega), if_pos hm0]
      exact ⟨pay1_real (Dt m c ⟨n + 1, hn⟩) (tile p q (n + 1)) hd _ _ ihL, fun j => pay3_real (Dt m c ⟨n + 1, hn⟩) (tile p q (n + 1)) hd j⟩
    · by_cases hm7 : (n + 1) % 8 = 7
      · have e : outsAt m c (n + 1) hn = outD m c ⟨n + 1, hn⟩ hm7 (outsAt m c n (Nat.lt_of_succ_lt hn)).1 (outsAt m c n (Nat.lt_of_succ_lt hn)).2 :=
          outsAt_D m c ⟨n + 1, hn⟩ hm7
        rw [e]; unfold outD; dsimp only
        rw [out4_D_eq, out5_D_eq, acc_succ_fst, acc_succ_snd, if_pos hm7, if_neg hm0]
        have hS' : ∀ j : Fin 4096, k0_pay4 (F := Ideal) (Dt m c ⟨n + 1, hn⟩) (outsAt m c n (Nat.lt_of_succ_lt hn)).2 (ix2 0 j)
            = ((min ((acc p q n).2 j) (tileColMin p q (n + 1) j) : ℝ) : EReal) :=
          fun j => pay4_real (Dt m c ⟨n + 1, hn⟩) (tile p q (n + 1)) hd _ _ ihS j
        exact ⟨pay5_real _ _ hS' _ _ (pay1_real (Dt m c ⟨n + 1, hn⟩) (tile p q (n + 1)) hd _ _ ihL), hS'⟩
      · have e : outsAt m c (n + 1) hn = outC m c ⟨n + 1, hn⟩ hm0 hm7 (outsAt m c n (Nat.lt_of_succ_lt hn)).1 (outsAt m c n (Nat.lt_of_succ_lt hn)).2 :=
          outsAt_C m c ⟨n + 1, hn⟩ hm0 hm7
        rw [e]; unfold outC; dsimp only
        rw [out4_C_eq, out5_C_eq, acc_succ_fst, acc_succ_snd, if_neg hm7, if_neg hm0]
        exact ⟨pay1_real (Dt m c ⟨n + 1, hn⟩) (tile p q (n + 1)) hd _ _ ihL,
          fun j => pay4_real (Dt m c ⟨n + 1, hn⟩) (tile p q (n + 1)) hd _ _ ihS j⟩

end Cert.Chamfer.KernelValue

end
-- ==== Proof.Val.Grid.lean ====
/-
  The tiled accumulation computes the chamfer loss: after the last of the 32 tiles the running loss is `loss`.
-/
import proofs.«128816_g21801253994783_cont_8to1_138_5_alg».proof.Proof.Val.Spec
import Mathlib.Algebra.BigOperators.Fin
import Mathlib.Data.Finset.Lattice.Fold

noncomputable section

open scoped BigOperators

namespace Cert.Chamfer

/-! ## The recursion, one tile at a time -/

/-- The running column minima after tile `n + 1`: they restart at a batch's first tile and fold by `min` otherwise. -/
theorem acc_succ_snd (p q : Cloud) (n : ℕ) :
    (acc p q (n + 1)).2 = if (n + 1) % 8 = 0 then tileColMin p q (n + 1)
      else fun j => min ((acc p q n).2 j) (tileColMin p q (n + 1) j) := rfl

/-- The loss so far after tile `n + 1`. -/
theorem acc_succ_fst (p q : Cloud) (n : ℕ) :
    (acc p q (n + 1)).1 = if (n + 1) % 8 = 7
      then (acc p q n).1 + tileRowSum p q (n + 1) * w + (∑ j : Fin 4096, (acc p q (n + 1)).2 j) * w
      else (acc p q n).1 + tileRowSum p q (n + 1) * w := rfl

/-- At a batch's first tile the running minima are that tile's. -/
theorem acc_snd_first (p q : Cloud) (t : ℕ) (ht : t % 8 = 0) : (acc p q t).2 = tileColMin p q t := by
  cases t with
  | zero => rfl
  | succ m => rw [acc_succ_snd, if_pos ht]

/-- A lower bound of the running minima after the batch's tile `k` is a lower bound of each tile so far. -/
theorem le_acc_snd (p q : Cloud) (b : ℕ) (x : ℝ) (j : Fin 4096) (k : ℕ) (hk : k ≤ 7) :
    x ≤ (acc p q (8 * b + k)).2 j ↔ ∀ s, s ≤ k → x ≤ tileColMin p q (8 * b + s) j := by
  induction k with
  | zero =>
    rw [acc_snd_first p q (8 * b + 0) (by omega)]
    constructor
    · intro h s hs
      obtain rfl : s = 0 := by omega
      exact h
    · intro h
      exact h 0 le_rfl
  | succ k ih =>
    have e : 8 * b + (k + 1) = (8 * b + k) + 1 := by omega
    rw [e, acc_succ_snd, if_neg (by omega)]
    show x ≤ min ((acc p q (8 * b + k)).2 j) (tileColMin p q (8 * b + k + 1) j) ↔ _
    rw [le_min_iff, ih (by omega)]
    constructor
    · rintro ⟨h1, h2⟩ s hs
      rcases Nat.lt_or_ge s (k + 1) with h | h
      · exact h1 s (by omega)
      · obtain rfl : s = k + 1 := by omega
        exact h2
    · intro h
      exact ⟨fun s hs => h s (by omega), h (k + 1) le_rfl⟩

/-- After a batch's eight tiles the running minima are the batch's column minima. -/
theorem acc_snd_last (p q : Cloud) (b : ℕ) (j : Fin 4096) :
    (acc p q (8 * b + 7)).2 j = colMin p q (tileB (8 * b)) j := by
  apply eq_of_forall_le_iff
  intro x
  rw [le_acc_snd p q b x j 7 le_rfl]
  unfold colMin tileColMin tile
  simp only [Finset.le_inf'_iff, Finset.mem_univ, true_implies]
  constructor
  · intro h n
    have hn := n.isLt
    have h1 := h (n.val / 512) (by omega) ⟨n.val % 512, Nat.mod_lt _ (by decide)⟩
    have eb : tileB (8 * b + n.val / 512) = tileB (8 * b) := by
      unfold tileB; apply Fin.ext; simp only; omega
    have en : tileN (8 * b + n.val / 512) ⟨n.val % 512, Nat.mod_lt _ (by decide)⟩ = n := by
      unfold tileN; apply Fin.ext; simp only; omega
    rw [eb, en] at h1
    exact h1
  · intro h s hs i
    have eb : tileB (8 * b + s) = tileB (8 * b) := by
      unfold tileB; apply Fin.ext; simp only; omega
    rw [eb]
    exact h _

/-! ## The loss so far -/

/-- After tile `n` the loss so far is the weight times the row sums of the tiles so far plus the column minima's
    sums of the batches completed so far. -/
theorem acc_fst (p q : Cloud) (n : ℕ) :
    (acc p q n).1 = w * (∑ t ∈ Finset.range (n + 1), tileRowSum p q t)
      + w * (∑ b ∈ Finset.range ((n + 1) / 8), ∑ j : Fin 4096, colMin p q (tileB (8 * b)) j) := by
  induction n with
  | zero =>
    show 0 + tileRowSum p q 0 * w = _
    simp
    ring
  | succ n ih =>
    rw [acc_succ_fst]
    split_ifs with h
    · have e : (n + 1 + 1) / 8 = (n + 1) / 8 + 1 := by omega
      have e2 : n + 1 = 8 * ((n + 1) / 8) + 7 := by omega
      have e3 : (∑ j : Fin 4096, (acc p q (n + 1)).2 j)
          = ∑ j : Fin 4096, colMin p q (tileB (8 * ((n + 1) / 8))) j := by
        apply Finset.sum_congr rfl
        intro j _
        conv_lhs => rw [e2]
        exact acc_snd_last p q _ j
      rw [e, Finset.sum_range_succ _ (n + 1), Finset.sum_range_succ _ ((n + 1) / 8), ih, e3]
      ring
    · have e : (n + 1 + 1) / 8 = (n + 1) / 8 := by omega
      rw [e, Finset.sum_range_succ _ (n + 1), ih]
      ring

/-! ## Reindexing the tiles -/

/-- Tile `8b + k` of the 32 tiles. -/
def tileEquiv : Fin 4 × Fin 8 ≃ Fin 32 where
  toFun x := ⟨8 * x.1.val + x.2.val, by have := x.1.isLt; have := x.2.isLt; omega⟩
  invFun t := (⟨t.val / 8, by have := t.isLt; omega⟩, ⟨t.val % 8, Nat.mod_lt _ (by decide)⟩)
  left_inv x := by
    have := x.1.isLt; have := x.2.isLt
    apply Prod.ext <;> apply Fin.ext <;> simp only <;> omega
  right_inv t := by apply Fin.ext; simp only; omega

/-- Point `512k + i` of the 4096 points. -/
def pointEquiv : Fin 8 × Fin 512 ≃ Fin 4096 where
  toFun x := ⟨512 * x.1.val + x.2.val, by have := x.1.isLt; have := x.2.isLt; omega⟩
  invFun n := (⟨n.val / 512, by have := n.isLt; omega⟩, ⟨n.val % 512, Nat.mod_lt _ (by decide)⟩)
  left_inv x := by
    have := x.1.isLt; have := x.2.isLt
    apply Prod.ext <;> apply Fin.ext <;> simp only <;> omega
  right_inv n := by apply Fin.ext; simp only; omega

/-- A tile's row sum is the sum of its 512 points' row minima. -/
theorem tileRowSum_eq (p q : Cloud) (t : ℕ) :
    tileRowSum p q t = ∑ i : Fin 512, rowMin p q (tileB t) (tileN t i) := rfl

/-- The 32 tiles' row sums add up to the sum of all points' row minima. -/
theorem sum_tileRowSum (p q : Cloud) :
    (∑ t ∈ Finset.range 32, tileRowSum p q t) = ∑ b : Fin 4, ∑ n : Fin 4096, rowMin p q b n := by
  rw [Finset.sum_range (fun t => tileRowSum p q t), ← Equiv.sum_comp tileEquiv, Fintype.sum_prod_type]
  apply Finset.sum_congr rfl
  intro b _
  rw [← Equiv.sum_comp pointEquiv (fun n => rowMin p q b n), Fintype.sum_prod_type]
  apply Finset.sum_congr rfl
  intro k _
  rw [tileRowSum_eq]
  apply Finset.sum_congr rfl
  intro i _
  have hb := b.isLt
  have hk := k.isLt
  have eb : tileB (tileEquiv (b, k)).val = b := by
    unfold tileB tileEquiv; apply Fin.ext; simp only [Equiv.coe_fn_mk]; omega
  have en : tileN (tileEquiv (b, k)).val i = pointEquiv (k, i) := by
    unfold tileN tileEquiv pointEquiv; apply Fin.ext; simp only [Equiv.coe_fn_mk]; omega
  rw [eb, en]

/-- The four batches' column minima's sums. -/
theorem sum_colMin (p q : Cloud) :
    (∑ b ∈ Finset.range 4, ∑ j : Fin 4096, colMin p q (tileB (8 * b)) j)
      = ∑ b : Fin 4, ∑ m : Fin 4096, colMin p q b m := by
  rw [Finset.sum_range (fun b => ∑ j : Fin 4096, colMin p q (tileB (8 * b)) j)]
  apply Finset.sum_congr rfl
  intro b _
  have hb := b.isLt
  have eb : tileB (8 * b.val) = b := by
    unfold tileB; apply Fin.ext; simp only; omega
  rw [eb]

/-- After tile 31 the loss so far is the chamfer loss: the tiles' row minima's sums add up to the sum over all
    prediction points (tile t, row i is point 512·(t % 8) + i of batch t / 8), and a batch's running column minima
    after its eight tiles are the minima over all 4096 prediction points. -/
theorem acc_last (p q : Cloud) : (acc p q 31).1 = loss p q := by
  rw [acc_fst p q 31]
  have e : (31 + 1) / 8 = 4 := by norm_num
  rw [e, sum_tileRowSum, sum_colMin]
  unfold loss w
  ring

end Cert.Chamfer

end
-- ==== Proof.Val.Final.lean ====
/-
  The kernel's result over real clouds. The loss window is written back once, after the last grid point, through the
  whole 1 × 1 array, so the array ends at what the last point left in the loss cell; the host line after the region
  reshapes it to a scalar. With the accumulation's closed form the scalar is the chamfer loss.
-/
import proofs.«128816_g21801253994783_cont_8to1_138_5_alg».proof.Proof.KI.Body
import proofs.«128816_g21801253994783_cont_8to1_138_5_alg».proof.Proof.Val.KernelValue
import proofs.«128816_g21801253994783_cont_8to1_138_5_alg».proof.Proof.Val.Grid
import Idealize.ShloMosaic.Lib.StableHlo.Run
import Idealize.ShloMosaic.Lib.Pipeline.Value

noncomputable section

open scoped BigOperators

namespace Cert.Chamfer.Final

open Cert.KernelIdeal Cert.KernelIdeal.Gen Cert.KernelIdeal.Body Cert.Chamfer Cert.Chamfer.Blocks Cert.Chamfer.KernelValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The last grid point. -/
abbrev tLast : Fin cfg0.N := ⟨31, by decide⟩

/-- The loss array after the run is the loss cell after the last point. -/
theorem finalA_2 (c : Dev nD) : (dats m 0 c).arrAt 2 cfg0.N = (outsAt m c tLast.val tLast.isLt).1 := by
  show (dats m 0 c).arrAt 2 (tLast.val + 1) = _
  rw [(dats m 0 c).arrAt_succ 2 tLast, if_pos ((flush0_2 tLast).mpr rfl)]
  have hz : (fun a => (win0_2.index tLast) a * main_v1.ty.shape.size a) = fun _ => 0 := funext fun a => by fin_cases a <;> decide
  refine (Memref.write_access_unit_zero_univ (Elt Ideal) main_v1 hz _ _ _).trans ?_
  exact after0_2 m c tLast

/-- The program's scalar result, as the host line after the region leaves it, is the chamfer loss of the two clouds. -/
theorem kernel_result (c : Dev nD) (p q : Cloud)
    (h0 : ∀ b n d, arr0 m c (ix3 b n d) = ((p b n d : ℝ) : EReal)) (h1 : ∀ b n d, arr1 m c (ix3 b n d) = ((q b n d : ℝ) : EReal))
    (i : S_.Idx) :
    Pipeline.afterTail₀ cfgs (dats m) 0 (V0 m) [hostOps1] c main_v2 i = ((loss p q : ℝ) : EReal) := by
  unfold Pipeline.afterTail₀
  show StableHlo.after hostOps1 _ (Proc.devRef .tc main_v2) i = _
  after_results
  dsimp only
  rw [Pipeline.withArrays_arr spec0 launch0.win.arr_inj c _ _ 2]
  obtain rfl := eq_ix0 i
  refine (shapeCast_apply _ _ ix0 (ix2 0 0) (by rfl)).trans ?_
  refine (congrFun (finalA_2 m c) (ix2 0 0)).trans ?_
  refine ((outsAt_real m c p q h0 h1 31 tLast.isLt).1).trans ?_
  rw [acc_last]

end Cert.Chamfer.Final

end
-- ==== Proof.Val.RefValue.lean ====
/-
  The reference's result over the reals: on real clouds it is the chamfer loss.
-/
import proofs.«128816_g21801253994783_cont_8to1_138_5_alg».proof.Proof.Gen.ReferenceIdeal.Read
import proofs.«128816_g21801253994783_cont_8to1_138_5_alg».proof.Proof.Val.Spec
import Idealize.ShloMosaic.Lib.ValueIdx
import Idealize.ShloMosaic.PureOps.Ideal.Laws

noncomputable section

open scoped BigOperators

namespace Cert.Chamfer.RefValue

open Cert.ReferenceIdeal Cert.Chamfer
open Idealize.ShloMosaic Idealize.ShloMosaic.ValueIdx

/-! ## The constants the reference spells, as extended reals -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `16384.0` denotes the real `16384`. -/
theorem ofBits_16384 : Ideal.ofBits .f32 0x46800000#32 = ((16384 : ℝ) : EReal) := by
  simp [Ideal.ofBits, Ideal.ieee, -EReal.coe_mul]; norm_num

/-- The pattern of `+inf` denotes `⊤`. -/
theorem ofBits_inf : Ideal.ofBits .f32 0x7F800000#32 = (⊤ : EReal) := by
  simp [Ideal.ofBits, Ideal.ieee]

/-! ## Coercions through finite sums and minima -/

/-- The coercion is monotone, so it commutes with the maximum … -/
theorem coe_max (x y : ℝ) : ((max x y : ℝ) : EReal) = max (x : EReal) (y : EReal) :=
  EReal.coe_strictMono.monotone.map_max

/-- … and with the minimum. -/
theorem coe_min (x y : ℝ) : ((min x y : ℝ) : EReal) = min (x : EReal) (y : EReal) :=
  EReal.coe_strictMono.monotone.map_min

/-- The coercion of a finite real sum is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- From `⊤`, the running minimum of real coercions over a nonempty set is the coercion of the least of them. -/
theorem fold_min_coe {ι : Type} (s : Finset ι) (hs : s.Nonempty) (f : ι → ℝ) :
    s.fold min (⊤ : EReal) (fun k => ((f k : ℝ) : EReal)) = ((s.inf' hs f : ℝ) : EReal) := by
  classical
  induction hs using Finset.Nonempty.cons_induction with
  | singleton a => rw [Finset.fold_singleton, Finset.inf'_singleton, min_eq_left le_top]
  | cons a s ha hs ih => rw [Finset.fold_cons, ih, Finset.inf'_cons hs, ← coe_min]

/-! ## The clamped squared distance -/

section Real
variable (x0 x1 : (⟨S4x4096x3, .f32⟩ : BufTy).Contents (Elt Ideal)) (p q : Cloud)
  (h0 : ∀ b n d, x0 (ix3 b n d) = ((p b n d : ℝ) : EReal)) (h1 : ∀ b n d, x1 (ix3 b n d) = ((q b n d : ℝ) : EReal))
include h0 h1

open Cert.ReferenceIdeal.Read in
/-- On real clouds the reference's clamped distance array holds `sq`. -/
theorem v14_real (b : Fin 4) (n m : Fin 4096) :
    Read.val_main_v14 (F := Ideal) x0 x1 (ix3 b n m) = ((sq p q b n m : ℝ) : EReal) := by
  rw [val_main_v14_apply, val_main_v12_apply, val_main_v13_apply, val_main_cst_2_apply, val_main_v9_apply,
    val_main_v11_apply, val_main_v10_apply, val_main_cst_1_apply, val_main_v4_apply, val_main_v7_apply,
    val_main_v5_apply, val_main_v1_apply, val_main_v8_apply, val_main_v6_apply, val_main_v3_apply,
    val_main_cst_apply, val_main_cst_0_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  simp only [e1, e3, el, er, val_main_v0_apply, val_main_v2_apply, h0, h1, Ideal.ofBits_def, Ideal.mulf_def,
    Ideal.addf_def, Ideal.subf_def, Ideal.maximumf_def, Ideal.ofBits_zero_f32, ofBits_two, zero_add]
  unfold sq nrm dot
  rw [coe_max, EReal.coe_sub, EReal.coe_add, EReal.coe_mul, coe_sum, coe_sum, coe_sum]
  simp only [EReal.coe_mul, EReal.coe_zero]

end Real

/-! ## The two minimum stages -/

/-- Dropping the last axis of [4, 4096, 4096] leaves [4, 4096] … -/
theorem red_d2 : S4x4096x4096.Reduces [2] S4x4096 := by decide
/-- … and so does dropping the middle one. -/
theorem red_d1 : S4x4096x4096.Reduces [1] S4x4096 := by decide

/-- The index (b, n) with `k` put back on the last axis is (b, n, k). -/
theorem lift_d2 (b : Fin 4) (n : Fin 4096) (k : Fin (S4x4096x4096.size 2)) :
    red_d2.lift (ix2 b n) k = ix3 b n (⟨k.val, k.isLt⟩ : Fin 4096) :=
  funext fun c => Fin.ext (by match c with | ⟨0, _⟩ => rfl | ⟨1, _⟩ => rfl | ⟨2, _⟩ => rfl)

/-- The index (b, m) with `k` put back on the middle axis is (b, k, m). -/
theorem lift_d1 (b : Fin 4) (m : Fin 4096) (k : Fin (S4x4096x4096.size 1)) :
    red_d1.lift (ix2 b m) k = ix3 b (⟨k.val, k.isLt⟩ : Fin 4096) m :=
  funext fun c => Fin.ext (by match c with | ⟨0, _⟩ => rfl | ⟨1, _⟩ => rfl | ⟨2, _⟩ => rfl)

section Real
variable (x0 x1 : (⟨S4x4096x3, .f32⟩ : BufTy).Contents (Elt Ideal)) (p q : Cloud)
  (h0 : ∀ b n d, x0 (ix3 b n d) = ((p b n d : ℝ) : EReal)) (h1 : ∀ b n d, x1 (ix3 b n d) = ((q b n d : ℝ) : EReal))
include h0 h1

/-- The minimum over the target points is `rowMin`. -/
theorem v15_real (b : Fin 4) (n : Fin 4096) :
    Read.val_main_v15 (F := Ideal) x0 x1 (ix2 b n) = ((rowMin p q b n : ℝ) : EReal) := by
  unfold Read.val_main_v15
  rw [Host.reduce_eq_fold_single FloatOps.minimumf _ _ Gen.reducesTo_S4x4096x4096_S4x4096_d2 red_d2 Gen.h_S_]
  have hf : (Read.val_main_v14 (F := Ideal) x0 x1 ∘ red_d2.lift (ix2 b n))
      = fun k : Fin 4096 => ((sq p q b n k : ℝ) : EReal) := funext fun k => by
    rw [Function.comp_apply, lift_d2]; exact v14_real x0 x1 p q h0 h1 b n _
  rw [hf, Read.val_main_cst_3_apply, Ideal.ofBits_def, ofBits_inf]
  exact fold_min_coe Finset.univ Finset.univ_nonempty fun m => sq p q b n m

/-- The minimum over the prediction points is `colMin`. -/
theorem v16_real (b : Fin 4) (m : Fin 4096) :
    Read.val_main_v16 (F := Ideal) x0 x1 (ix2 b m) = ((colMin p q b m : ℝ) : EReal) := by
  unfold Read.val_main_v16
  rw [Host.reduce_eq_fold_single FloatOps.minimumf _ _ Gen.reducesTo_S4x4096x4096_S4x4096_d1 red_d1 Gen.h_S_]
  have hf : (Read.val_main_v14 (F := Ideal) x0 x1 ∘ red_d1.lift (ix2 b m))
      = fun k : Fin 4096 => ((sq p q b k m : ℝ) : EReal) := funext fun k => by
    rw [Function.comp_apply, lift_d1]; exact v14_real x0 x1 p q h0 h1 b _ m
  rw [hf, Read.val_main_cst_4_apply, Ideal.ofBits_def, ofBits_inf]
  exact fold_min_coe Finset.univ Finset.univ_nonempty fun n => sq p q b n m

end Real

/-! ## The loss -/

theorem ref_real (x0 x1 : (⟨S4x4096x3, .f32⟩ : BufTy).Contents (Elt Ideal)) (p q : Cloud)
    (h0 : ∀ b n d, x0 (ix3 b n d) = ((p b n d : ℝ) : EReal)) (h1 : ∀ b n d, x1 (ix3 b n d) = ((q b n d : ℝ) : EReal)) :
    Cert.ReferenceIdeal.Read.val_main_v22 (F := Ideal) x0 x1 ix0 = ((loss p q : ℝ) : EReal) := by
  -- the three quotients, the two total sums (each a double sum over batch and point), the constants
  rw [Read.val_main_v22_apply, Read.val_main_v21_apply, Read.val_main_v18_apply, Read.val_main_v20_apply,
    Read.val_main_v17_apply, Read.val_main_v19_apply, Read.val_main_cst_9_apply, Read.val_main_cst_6_apply,
    Read.val_main_cst_8_apply, Read.val_main_cst_5_apply, Read.val_main_cst_7_apply, sum_idx2, sum_idx2]
  simp only [v15_real x0 x1 p q h0 h1, v16_real x0 x1 p q h0 h1, Ideal.hostDivf_def, Ideal.addf_def, Ideal.ofBits_def,
    Ideal.ofBits_zero_f32, ofBits_two, ofBits_16384, zero_add]
  -- a quotient by a nonzero real is the product with its inverse; the rest is real arithmetic:
  -- (s₁/16384 + s₂/16384)/2 = (s₁ + s₂)/32768
  rw [Ideal.div_coe (by norm_num : (2 : ℝ) ≠ 0), Ideal.div_coe (by norm_num : (16384 : ℝ) ≠ 0),
    Ideal.div_coe (by norm_num : (16384 : ℝ) ≠ 0)]
  simp only [← coe_sum, ← EReal.coe_mul, ← EReal.coe_add]
  unfold loss
  congr 1
  ring

end Cert.Chamfer.RefValue

end
-- ==== Proof.Val.Finite.lean ====
/-
  The precondition says every entry of both argument arrays is finite, so both arrays are real clouds.
-/
import proofs.«128816_g21801253994783_cont_8to1_138_5_alg».proof.Pre_finite_inputs
import proofs.«128816_g21801253994783_cont_8to1_138_5_alg».proof.Proof.Gen.Pre_finite_inputs
import proofs.«128816_g21801253994783_cont_8to1_138_5_alg».proof.Proof.Val.Spec
import Idealize.ShloMosaic.Lib.ValueIdx
import Idealize.ShloMosaic.Lib.ReduceAll

noncomputable section

open scoped BigOperators

namespace Cert.Chamfer.Finite

open Cert.Chamfer
open Idealize.ShloMosaic Idealize.ShloMosaic.ValueIdx

/-- The shape with no axes has a single index. -/
instance : Subsingleton Cert.Pre_finite_inputs.S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max x (−x) is strictly below +∞ is neither ⊤ nor ⊥, hence a real. -/
theorem real_of_abs_lt_top (x : EReal)
    (hx : Ideal.cmp .olt (max x (-x)) (Ideal.ofBits .f32 0x7F800000#32) = 1#1) : x = ((x.toReal : ℝ) : EReal) := by
  rw [inf_bits] at hx
  have hlt : max x (-x) < ⊤ := by
    by_contra hn
    simp [Ideal.cmp, hn] at hx
  induction x using EReal.rec with
  | bot => simp at hlt
  | coe r => rfl
  | top => simp at hlt

/-- Every entry of an array whose conjunction over all entries of |x| < +∞ is 1 is a real. -/
theorem entry_real [hP : Cert.Pre_finite_inputs.Facts] (A : FVec Ideal Cert.Pre_finite_inputs.S4x4096x3 .f32)
    (e : Host.reduce IntOp.andi
        (cmpf CmpFPredicate.olt (Host.absf A)
          (broadcastInDim Cert.Pre_finite_inputs.S4x4096x3 ![] hP.bcast_S_S4x4096x3
            (constant (F := Ideal) Cert.Pre_finite_inputs.S_ FTy.f32 0x7F800000#32)))
        (constantI Cert.Pre_finite_inputs.S_ 1 1#1) hP.reducesTo_S4x4096x3_S_d0_1_2 hP.h_S_ ix0 = 1#1)
    (i : Cert.Pre_finite_inputs.S4x4096x3.Idx) : A i = (((A i).toReal : ℝ) : EReal) := by
  have h1 := Host.reduce_andi_all _ _ _ _ _ e i
  exact real_of_abs_lt_top (A i) h1

theorem real_of_pre [hP : Cert.Pre_finite_inputs.Facts] (A0 A1 : FVec Ideal Cert.Pre_finite_inputs.S4x4096x3 .f32)
    (h : Cert.Pre_finite_inputs.fn (F := Ideal) A0 A1 = fun _ => 1#1) :
    ∃ p q : Cloud, (∀ b n d, A0 (ix3 b n d) = ((p b n d : ℝ) : EReal)) ∧ (∀ b n d, A1 (ix3 b n d) = ((q b n d : ℝ) : EReal)) := by
  have h0 := congrFun h ValueIdx.ix0
  dsimp only [Cert.Pre_finite_inputs.fn] at h0
  obtain ⟨e0, e1⟩ := IntOp.andi_eq_one.1 h0
  exact ⟨fun b n d => (A0 (ix3 b n d)).toReal, fun b n d => (A1 (ix3 b n d)).toReal,
    fun b n d => entry_real A0 e0 (ix3 b n d), fun b n d => entry_real A1 e1 (ix3 b n d)⟩

end Cert.Chamfer.Finite

end
-- ==== Proof.lean ====
/-
  The certificate of the tiled chamfer-loss kernel against its jnp reference.

  The kernel walks a 4 × 8 grid: batch b, tile nb of 512 prediction points against the batch's 4096 target points.
  Per tile it forms the clamped expanded squared distances max(|p|² + |q|² − 2⟨p,q⟩, 0), adds the sum of the rows'
  minima times 2^-15 to a 1 × 1 loss cell (zeroed at the first point), and keeps the batch's running column minima
  in a scratch row (overwritten at a batch's first tile, folded by a pointwise minimum after); at a batch's last
  tile it adds the scratch row's sum times 2^-15 to the loss. The reference forms all 4 × 4096 × 4096 distances,
  takes both minima and divides the two means' sum by 2: (Σ rowmin / 16384 + Σ colmin / 16384) / 2.

  Frames. The body branches on the grid coordinates, so a point falls into one of four cases; each case's run of
  the body is found symbolically, the loss cell is carried in its window's staging buffer (written back only after
  the last point) and the scratch row in the region's invariant. The same text, generic in the float instance,
  proves the word-level program's frame and the idealized program's. The reference is straight-line host code.

  Values, at the ideal instance, under the precondition that every input is finite. Both clouds are then real, the
  kernel's accumulation over the 32 tiles is a recursion over the reals whose end value is the chamfer loss
  (Σ rowmin + Σ colmin) / 32768 (the tiles' rows enumerate a batch's prediction points, and the minimum over a
  batch's eight tiles of the tiles' column minima is the column minimum over all its prediction points), and the
  reference's result is the same real number. The law that joins the two sides is distributivity of 1/32768 over
  the sums, which is why finiteness is used.

  The idealization dropped two bf16 round trips (a truncation followed by an extension) of the two input blocks:
  the two conjuncts of `preserves`.
-/
import proofs.«128816_g21801253994783_cont_8to1_138_5_alg».proof.Defs
import proofs.«128816_g21801253994783_cont_8to1_138_5_alg».proof.Proof.Gen.Kernel
import proofs.«128816_g21801253994783_cont_8to1_138_5_alg».proof.Proof.Gen.KernelIdeal
import proofs.«128816_g21801253994783_cont_8to1_138_5_alg».proof.Proof.Gen.ReferenceIdeal
import proofs.«128816_g21801253994783_cont_8to1_138_5_alg».proof.Proof.Gen.ReferenceIdeal.Run
import proofs.«128816_g21801253994783_cont_8to1_138_5_alg».proof.Proof.Gen.ReferenceIdeal.Read
import proofs.«128816_g21801253994783_cont_8to1_138_5_alg».proof.Proof.Gen.Pre_finite_inputs
import proofs.«128816_g21801253994783_cont_8to1_138_5_alg».proof.Proof.K.Body
import proofs.«128816_g21801253994783_cont_8to1_138_5_alg».proof.Proof.KI.Body
import proofs.«128816_g21801253994783_cont_8to1_138_5_alg».proof.Proof.Val.Final
import proofs.«128816_g21801253994783_cont_8to1_138_5_alg».proof.Proof.Val.RefValue
import proofs.«128816_g21801253994783_cont_8to1_138_5_alg».proof.Proof.Val.Finite
import Idealize.ShloMosaic.Adequacy
import Idealize.ShloMosaic.Init

noncomputable section

namespace Cert.Proof

open Idealize.ShloMosaic Idealize.ShloMosaic.ValueIdx Idealize.SL.Sem

/-- The word-level program runs to the end, faults nowhere and keeps its two argument arrays. -/
theorem frame_k : Cert.frame_Kernel := fun m ρ _ => Cert.Kernel.Body.frame (F := Bits) m ρ

/-- So does the idealized program. -/
theorem frame_ki : Cert.frame_KernelIdeal := fun m ρ _ => Cert.KernelIdeal.Body.frame (F := Ideal) m ρ

/-- The reference is host code: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two dropped bf16 round trips: at the ideal instance a truncation followed by an extension is the identity. -/
theorem preserves : Cert.preserves_Kernel_KernelIdeal :=
  ⟨IdealRules.truncf_extf.statement Cert.KernelIdeal.S512x3 .f32 .bf16, IdealRules.truncf_extf.statement Cert.KernelIdeal.S3x4096 .f32 .bf16⟩

/-- On finite inputs both programs end with the chamfer loss of the two clouds. -/
theorem algebraic : Cert.algebraic_KernelIdeal_ReferenceIdeal := by
  intro m ρ m' ρ' hpre hagree
  refine ⟨fun c => Pipeline.afterTail₀ Cert.KernelIdeal.cfgs (Cert.KernelIdeal.Body.dats m) 0 (Cert.KernelIdeal.Gen.V0 m) [Cert.KernelIdeal.Gen.hostOps1] c Cert.KernelIdeal.main_v2, ?_, ?_⟩
  · exact (θ_run Cert.KernelIdeal.defs _ _).mono (fun _ h c =>
      ⟨(h c).2 Cert.KernelIdeal.main_v2 (Pipeline.mem_restRefs_of Cert.KernelIdeal.main_v2 (by decide) (by decide)),
       ((h c).1 0).trans (((Cert.KernelIdeal.Body.dats m 0 c).arrAt_in 0 rfl _).trans
         ((Cert.KernelIdeal.Body.A_eq m c 0).trans (Cert.KernelIdeal.Gen.V_main_arg0 m c))),
       ((h c).2 Cert.KernelIdeal.main_arg1 (Pipeline.mem_restRefs_of Cert.KernelIdeal.main_arg1 (by decide) (by decide))).trans
         (Cert.KernelIdeal.Gen.W_main_arg1 m (Cert.KernelIdeal.Body.dats m) c)⟩)
      (Cert.KernelIdeal.Body.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨p, q, hp, hq⟩ := Cert.Chamfer.Finite.real_of_pre _ _ (hpre c)
    rw [Cert.ReferenceIdeal.Read.val_main_v22_eq, (hagree c).1, (hagree c).2]
    funext i
    obtain rfl := eq_ix0 i
    exact (Cert.Chamfer.RefValue.ref_real _ _ p q hp hq).trans (Cert.Chamfer.Final.kernel_result m c p q hp hq ix0).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
